-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x128 : Shape := ⟨2, ![256, 128]⟩
abbrev S256x5 : Shape := ⟨2, ![256, 5]⟩
abbrev S256x768 : Shape := ⟨2, ![256, 768]⟩
abbrev S5x1024 : Shape := ⟨2, ![5, 1024]⟩
abbrev S128x1024 : Shape := ⟨2, ![128, 1024]⟩
abbrev S5x256 : Shape := ⟨2, ![5, 256]⟩
abbrev S256 : Shape := ⟨1, ![256]⟩
abbrev S256x1024 : Shape := ⟨2, ![256, 1024]⟩
abbrev S1024 : Shape := ⟨1, ![1024]⟩
abbrev S768x1024 : Shape := ⟨2, ![768, 1024]⟩
abbrev S_ : Shape := ⟨0, ![]⟩

class Facts : Prop where
  bcast_S_S256x5 : S_.BroadcastsInDim S256x5 (![] : Fin 0 → Fin S256x5.rank)
  reducesTo_S256x5_S_d0_1 : S256x5.ReducesTo [0, 1] S_
  h_S_ : 0 < S_.numel
  bcast_S_S256x768 : S_.BroadcastsInDim S256x768 (![] : Fin 0 → Fin S256x768.rank)
  reducesTo_S256x768_S_d0_1 : S256x768.ReducesTo [0, 1] S_
  bcast_S_S5x1024 : S_.BroadcastsInDim S5x1024 (![] : Fin 0 → Fin S5x1024.rank)
  reducesTo_S5x1024_S_d0_1 : S5x1024.ReducesTo [0, 1] S_
  bcast_S_S128x1024 : S_.BroadcastsInDim S128x1024 (![] : Fin 0 → Fin S128x1024.rank)
  reducesTo_S128x1024_S_d0_1 : S128x1024.ReducesTo [0, 1] S_
  bcast_S_S5x256 : S_.BroadcastsInDim S5x256 (![] : Fin 0 → Fin S5x256.rank)
  reducesTo_S5x256_S_d0_1 : S5x256.ReducesTo [0, 1] S_
  bcast_S_S256 : S_.BroadcastsInDim S256 (![] : Fin 0 → Fin S256.rank)
  reducesTo_S256_S_d0 : S256.ReducesTo [0] S_
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S768x1024 : S_.BroadcastsInDim S768x1024 (![] : Fin 0 → Fin S768x1024.rank)
  reducesTo_S768x1024_S_d0_1 : S768x1024.ReducesTo [0, 1] S_
  bcast_S_S256x128 : S_.BroadcastsInDim S256x128 (![] : Fin 0 → Fin S256x128.rank)
  reducesTo_S256x128_S_d0_1 : S256x128.ReducesTo [0, 1] S_

variable [Facts]

def fn_part3 {F : FTy → Type} [FloatOps F] (main_arg0 : IVec S256x128 32) (main_arg1 : IVec S256x128 32) (main_v48 : IVec S_ 1) (main_v49 : FVec F S128x1024 .f32) (main_v50 : FVec F S128x1024 .f32) : IVec S_ 1 :=
  let main_v51 : IVec S128x1024 1 := cmpf .olt main_v49 main_v50
  let main_c_19 : IVec S_ 1 := constantI S_ 1 1#1
  let main_v52 : IVec S_ 1 := (fun x v => Host.reduce IntOp.andi x v reducesTo_S128x1024_S_d0_1 h_S_) main_v51 main_c_19
  let main_v53 : IVec S_ 1 := andi main_v48 main_v52
  let main_c_20 : IVec S_ 32 := constantI S_ 32 0#32
  let main_v54 : IVec S256x128 32 := broadcastInDim S256x128 ![] bcast_S_S256x128 main_c_20
  let main_v55 : IVec S256x128 1 := cmpi .sge main_arg0 main_v54
  let main_c_21 : IVec S_ 1 := constantI S_ 1 1#1
  let main_v56 : IVec S_ 1 := (fun x v => Host.reduce IntOp.andi x v reducesTo_S256x128_S_d0_1 h_S_) main_v55 main_c_21
  let main_v57 : IVec S_ 1 := andi main_v53 main_v56
  let main_c_22 : IVec S_ 32 := constantI S_ 32 0#32
  let main_v58 : IVec S256x128 32 := broadcastInDim S256x128 ![] bcast_S_S256x128 main_c_22
  let main_v59 : IVec S256x128 1 := cmpi .sge main_arg1 main_v58
  let main_c_23 : IVec S_ 1 := constantI S_ 1 1#1
  let main_v60 : IVec S_ 1 := (fun x v => Host.reduce IntOp.andi x v reducesTo_S256x128_S_d0_1 h_S_) main_v59 main_c_23
  let main_v61 : IVec S_ 1 := andi main_v57 main_v60
  main_v61

def fn_part2 {F : FTy → Type} [FloatOps F] (main_arg0 : IVec S256x128 32) (main_arg1 : IVec S256x128 32) (main_arg9 : FVec F S1024 .f32) (main_arg10 : FVec F S768x1024 .f32) (main_arg11 : FVec F S1024 .f32) (main_arg12 : FVec F S128x1024 .f32) (main_v33 : IVec S_ 1) : IVec S_ 1 :=
  let main_v34 : FVec F S1024 .f32 := Host.absf main_arg9
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S768x1024 .f32 := Host.absf main_arg10
  let main_cst_14 : FVec F S_ .f32 := constant S_ .f32 0x7F800000#32
  let main_v40 : FVec F S768x1024 .f32 := broadcastInDim S768x1024 ![] bcast_S_S768x1024 main_cst_14
  let main_v41 : IVec S768x1024 1 := cmpf .olt main_v39 main_v40
  let main_c_15 : IVec S_ 1 := constantI S_ 1 1#1
  let main_v42 : IVec S_ 1 := (fun x v => Host.reduce IntOp.andi x v reducesTo_S768x1024_S_d0_1 h_S_) main_v41 main_c_15
  let main_v43 : IVec S_ 1 := andi main_v38 main_v42
  let main_v44 : FVec F S1024 .f32 := Host.absf main_arg11
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S128x1024 .f32 := Host.absf main_arg12
  let main_cst_18 : FVec F S_ .f32 := constant S_ .f32 0x7F800000#32
  let main_v50 : FVec F S128x1024 .f32 := broadcastInDim S128x1024 ![] bcast_S_S128x1024 main_cst_18
  fn_part3 (F := F) main_arg0 main_arg1 main_v48 main_v49 main_v50

def fn_part1 {F : FTy → Type} [FloatOps F] (main_arg0 : IVec S256x128 32) (main_arg1 : IVec S256x128 32) (main_arg6 : FVec F S5x256 .f32) (main_arg7 : FVec F S256 .f32) (main_arg8 : FVec F S256x1024 .f32) (main_arg9 : FVec F S1024 .f32) (main_arg10 : FVec F S768x1024 .f32) (main_arg11 : FVec F S1024 .f32) (main_arg12 : FVec F S128x1024 .f32) (main_v13 : IVec S_ 1) (main_v16 : IVec S128x1024 1) : IVec S_ 1 :=
  let main_c_5 : IVec S_ 1 := constantI S_ 1 1#1
  let main_v17 : IVec S_ 1 := (fun x v => Host.reduce IntOp.andi x v reducesTo_S128x1024_S_d0_1 h_S_) main_v16 main_c_5
  let main_v18 : IVec S_ 1 := andi main_v13 main_v17
  let main_v19 : FVec F S5x256 .f32 := Host.absf main_arg6
  let main_cst_6 : FVec F S_ .f32 := constant S_ .f32 0x7F800000#32
  let main_v20 : FVec F S5x256 .f32 := broadcastInDim S5x256 ![] bcast_S_S5x256 main_cst_6
  let main_v21 : IVec S5x256 1 := cmpf .olt main_v19 main_v20
  let main_c_7 : IVec S_ 1 := constantI S_ 1 1#1
  let main_v22 : IVec S_ 1 := (fun x v => Host.reduce IntOp.andi x v reducesTo_S5x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x1024 .f32 := Host.absf main_arg8
  let main_cst_10 : FVec F S_ .f32 := constant S_ .f32 0x7F800000#32
  let main_v30 : FVec F S256x1024 .f32 := broadcastInDim S256x1024 ![] bcast_S_S256x1024 main_cst_10
  let main_v31 : IVec S256x1024 1 := cmpf .olt main_v29 main_v30
  let main_c_11 : IVec S_ 1 := constantI S_ 1 1#1
  let main_v32 : IVec S_ 1 := (fun x v => Host.reduce IntOp.andi x v reducesTo_S256x1024_S_d0_1 h_S_) main_v31 main_c_11
  let main_v33 : IVec S_ 1 := andi main_v28 main_v32
  fn_part2 (F := F) main_arg0 main_arg1 main_arg9 main_arg10 main_arg11 main_arg12 main_v33

def fn {F : FTy → Type} [FloatOps F] (main_arg0 : IVec S256x128 32) (main_arg1 : IVec S256x128 32) (main_arg2 : FVec F S256x5 .f32) (main_arg3 : FVec F S256x768 .f32) (main_arg4 : FVec F S5x1024 .f32) (main_arg5 : FVec F S128x1024 .f32) (main_arg6 : FVec F S5x256 .f32) (main_arg7 : FVec F S256 .f32) (main_arg8 : FVec F S256x1024 .f32) (main_arg9 : FVec F S1024 .f32) (main_arg10 : FVec F S768x1024 .f32) (main_arg11 : FVec F S1024 .f32) (main_arg12 : FVec F S128x1024 .f32) : IVec S_ 1 :=
  let main_v0 : FVec F S256x5 .f32 := Host.absf main_arg2
  let main_cst : FVec F S_ .f32 := constant S_ .f32 0x7F800000#32
  let main_v1 : FVec F S256x5 .f32 := broadcastInDim S256x5 ![] bcast_S_S256x5 main_cst
  let main_v2 : IVec S256x5 1 := cmpf .olt main_v0 main_v1
  let main_c : IVec S_ 1 := constantI S_ 1 1#1
  let main_v3 : IVec S_ 1 := (fun x v => Host.reduce IntOp.andi x v reducesTo_S256x5_S_d0_1 h_S_) main_v2 main_c
  let main_v4 : FVec F S256x768 .f32 := Host.absf main_arg3
  let main_cst_0 : FVec F S_ .f32 := constant S_ .f32 0x7F800000#32
  let main_v5 : FVec F S256x768 .f32 := broadcastInDim S256x768 ![] bcast_S_S256x768 main_cst_0
  let main_v6 : IVec S256x768 1 := cmpf .olt main_v4 main_v5
  let main_c_1 : IVec S_ 1 := constantI S_ 1 1#1
  let main_v7 : IVec S_ 1 := (fun x v => Host.reduce IntOp.andi x v reducesTo_S256x768_S_d0_1 h_S_) main_v6 main_c_1
  let main_v8 : IVec S_ 1 := andi main_v3 main_v7
  let main_v9 : FVec F S5x1024 .f32 := Host.absf main_arg4
  let main_cst_2 : FVec F S_ .f32 := constant S_ .f32 0x7F800000#32
  let main_v10 : FVec F S5x1024 .f32 := broadcastInDim S5x1024 ![] bcast_S_S5x1024 main_cst_2
  let main_v11 : IVec S5x1024 1 := cmpf .olt main_v9 main_v10
  let main_c_3 : IVec S_ 1 := constantI S_ 1 1#1
  let main_v12 : IVec S_ 1 := (fun x v => Host.reduce IntOp.andi x v reducesTo_S5x1024_S_d0_1 h_S_) main_v11 main_c_3
  let main_v13 : IVec S_ 1 := andi main_v8 main_v12
  let main_v14 : FVec F S128x1024 .f32 := Host.absf main_arg5
  let main_cst_4 : FVec F S_ .f32 := constant S_ .f32 0x7F800000#32
  let main_v15 : FVec F S128x1024 .f32 := broadcastInDim S128x1024 ![] bcast_S_S128x1024 main_cst_4
  let main_v16 : IVec S128x1024 1 := cmpf .olt main_v14 main_v15
  fn_part1 (F := F) main_arg0 main_arg1 main_arg6 main_arg7 main_arg8 main_arg9 main_arg10 main_arg11 main_arg12 main_v13 main_v16
-- ==== Kernel.lean ====
abbrev S256x128 : Shape := ⟨2, ![256, 128]⟩
abbrev S256x5 : Shape := ⟨2, ![256, 5]⟩
abbrev S256x768 : Shape := ⟨2, ![256, 768]⟩
abbrev S5x1024 : Shape := ⟨2, ![5, 1024]⟩
abbrev S128x1024 : Shape := ⟨2, ![128, 1024]⟩
abbrev S5x256 : Shape := ⟨2, ![5, 256]⟩
abbrev S256 : Shape := ⟨1, ![256]⟩
abbrev S256x1024 : Shape := ⟨2, ![256, 1024]⟩
abbrev S1024 : Shape := ⟨1, ![1024]⟩
abbrev S768x1024 : Shape := ⟨2, ![768, 1024]⟩
abbrev S_ : Shape := ⟨0, ![]⟩
abbrev S1x256 : Shape := ⟨2, ![1, 256]⟩
abbrev S1x1024 : Shape := ⟨2, ![1, 1024]⟩
abbrev S256x128x1024 : Shape := ⟨3, ![256, 128, 1024]⟩
abbrev S8x128 : Shape := ⟨2, ![8, 128]⟩
abbrev S8x5 : Shape := ⟨2, ![8, 5]⟩
abbrev S8x768 : Shape := ⟨2, ![8, 768]⟩
abbrev S8x128x1024 : Shape := ⟨3, ![8, 128, 1024]⟩
abbrev S8x128x128 : Shape := ⟨3, ![8, 128, 128]⟩
abbrev S8x128x1 : Shape := ⟨3, ![8, 128, 1]⟩
abbrev S8x128x256 : Shape := ⟨3, ![8, 128, 256]⟩
abbrev S1024x256 : Shape := ⟨2, ![1024, 256]⟩
abbrev S1024x1024 : Shape := ⟨2, ![1024, 1024]⟩
abbrev S8x256 : Shape := ⟨2, ![8, 256]⟩
abbrev S8x1024 : Shape := ⟨2, ![8, 1024]⟩
abbrev S8x1x1024 : Shape := ⟨3, ![8, 1, 1024]⟩
abbrev S1x128x1024 : Shape := ⟨3, ![1, 128, 1024]⟩

abbrev nBuf : Space → Nat
  | .hbm => 31
  | .vmem => 19
  | .smem => 0
  | _ => 0

abbrev bufTy : (tb : Table) → Fin (tcTables nBuf tb) → BufTy
  | .hbm, ⟨0, _⟩ => ⟨S256x128, .i32⟩
  | .hbm, ⟨1, _⟩ => ⟨S256x128, .i32⟩
  | .hbm, ⟨2, _⟩ => ⟨S256x5, .f32⟩
  | .hbm, ⟨3, _⟩ => ⟨S256x768, .f32⟩
  | .hbm, ⟨4, _⟩ => ⟨S5x1024, .f32⟩
  | .hbm, ⟨5, _⟩ => ⟨S128x1024, .f32⟩
  | .hbm, ⟨6, _⟩ => ⟨S5x256, .f32⟩
  | .hbm, ⟨7, _⟩ => ⟨S256, .f32⟩
  | .hbm, ⟨8, _⟩ => ⟨S256x1024, .f32⟩
  | .hbm, ⟨9, _⟩ => ⟨S1024, .f32⟩
  | .hbm, ⟨10, _⟩ => ⟨S768x1024, .f32⟩
  | .hbm, ⟨11, _⟩ => ⟨S1024, .f32⟩
  | .hbm, ⟨12, _⟩ => ⟨S128x1024, .f32⟩
  | .hbm, ⟨13, _⟩ => ⟨S_, .i32⟩
  | .hbm, ⟨14, _⟩ => ⟨S_, .f32⟩
  | .hbm, ⟨15, _⟩ => ⟨S128x1024, .f32⟩
  | .hbm, ⟨16, _⟩ => ⟨S256x1024, .f32⟩
  | .hbm, ⟨17, _⟩ => ⟨S256x1024, .bf16⟩
  | .hbm, ⟨18, _⟩ => ⟨S256x1024, .f32⟩
  | .hbm, ⟨19, _⟩ => ⟨S256x1024, .f32⟩
  | .hbm, ⟨20, _⟩ => ⟨S256x1024, .bf16⟩
  | .hbm, ⟨21, _⟩ => ⟨S5x256, .bf16⟩
  | .hbm, ⟨22, _⟩ => ⟨S256x1024, .bf16⟩
  | .hbm, ⟨23, _⟩ => ⟨S768x1024, .bf16⟩
  | .hbm, ⟨24, _⟩ => ⟨S1x256, .f32⟩
  | .hbm, ⟨25, _⟩ => ⟨S1x1024, .f32⟩
  | .hbm, ⟨26, _⟩ => ⟨S1x1024, .f32⟩
  | .hbm, ⟨27, _⟩ => ⟨S256x128x1024, .f32⟩
  | .hbm, ⟨28, _⟩ => ⟨S_, .i32⟩
  | .hbm, ⟨29, _⟩ => ⟨S256x128, .i32⟩
  | .hbm, ⟨30, _⟩ => ⟨S256x128, .i1⟩
  | .local _ .vmem, ⟨0, _⟩ => ⟨S8x128, .i32⟩
  | .local _ .vmem, ⟨1, _⟩ => ⟨S8x128, .i32⟩
  | .local _ .vmem, ⟨2, _⟩ => ⟨S8x128, .i32⟩
  | .local _ .vmem, ⟨3, _⟩ => ⟨S8x128, .i32⟩
  | .local _ .vmem, ⟨4, _⟩ => ⟨S8x5, .f32⟩
  | .local _ .vmem, ⟨5, _⟩ => ⟨S8x5, .f32⟩
  | .local _ .vmem, ⟨6, _⟩ => ⟨S8x768, .f32⟩
  | .local _ .vmem, ⟨7, _⟩ => ⟨S8x768, .f32⟩
  | .local _ .vmem, ⟨8, _⟩ => ⟨S256x1024, .bf16⟩
  | .local _ .vmem, ⟨9, _⟩ => ⟨S256x1024, .bf16⟩
  | .local _ .vmem, ⟨10, _⟩ => ⟨S5x256, .bf16⟩
  | .local _ .vmem, ⟨11, _⟩ => ⟨S1x256, .f32⟩
  | .local _ .vmem, ⟨12, _⟩ => ⟨S256x1024, .bf16⟩
  | .local _ .vmem, ⟨13, _⟩ => ⟨S1x1024, .f32⟩
  | .local _ .vmem, ⟨14, _⟩ => ⟨S768x1024, .bf16⟩
  | .local _ .vmem, ⟨15, _⟩ => ⟨S1x1024, .f32⟩
  | .local _ .vmem, ⟨16, _⟩ => ⟨S128x1024, .f32⟩
  | .local _ .vmem, ⟨17, _⟩ => ⟨S8x128x1024, .f32⟩
  | .local _ .vmem, ⟨18, _⟩ => ⟨S8x128x1024, .f32⟩
  | _, _ => ⟨S256x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_0 : Ref sig .tc := ⟨.hbm, 28, rfl⟩
abbrev main_v13 : Ref sig .tc := ⟨.hbm, 29, rfl⟩
abbrev main_v14 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S768x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S8x128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  pads_S5x1024_S128x1024_01230_000 : S5x1024.Pads (![0, 0] : Fin 2 → Nat) ![123, 0] ![0, 0] S128x1024
  h_S_ : 0 < S_.numel
  concatenates_S128x1024_S128x1024_S256x1024_d0 : Shape.Concatenates [S128x1024, S128x1024] S256x1024 0
  bitsLt_bf16_f32 : FTy.bits .bf16 < FTy.bits .f32
  shapeCasts_S256_S1x256 : S256.ShapeCasts S1x256
  shapeCasts_S1024_S1x1024 : S1024.ShapeCasts S1x1024
  inb_S8x128_S8x128_0_0 : ∀ a, (![0, 0] : Fin 2 → Nat) a + S8x128.size a ≤ S8x128.size a
  h_S8x128 : 0 < S8x128.numel
  inb_S8x5_S8x5_0_0 : ∀ a, (![0, 0] : Fin 2 → Nat) a + S8x5.size a ≤ S8x5.size a
  h_S8x5 : 0 < S8x5.numel
  inb_S8x768_S8x768_0_0 : ∀ a, (![0, 0] : Fin 2 → Nat) a + S8x768.size a ≤ S8x768.size a
  h_S8x768 : 0 < S8x768.numel
  iota_S8x128x128_d2_w32 : S8x128x128.Iotas .tc 32 [2]
  shapeCasts_S8x128_S8x128x1 : S8x128.ShapeCasts S8x128x1
  broadcasts_S8x128x1_S8x128x128 : S8x128x1.Broadcasts S8x128x128
  natLt_1_32 : 1 < 32
  concatenates_S8x128x128_S8x128x128_S8x128x256_d2 : Shape.Concatenates [S8x128x128, S8x128x128] S8x128x256 2
  shapeCasts_S8x128x256_S1024x256 : S8x128x256.ShapeCasts S1024x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  shapeCasts_S1024x1024_S8x128x1024 : S1024x1024.ShapeCasts S8x128x1024
  inb_S5x256_S5x256_0_0 : ∀ a, (![0, 0] : Fin 2 → Nat) a + S5x256.size a ≤ S5x256.size a
  h_S5x256 : 0 < S5x256.numel
  shapeCasts_S5x256_S5x256 : S5x256.ShapeCasts S5x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8x256 : S1x256.Broadcasts S8x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S8x1024 : S1x1024.Broadcasts S8x1024
  inb_S768x1024_S768x1024_0_0 : ∀ a, (![0, 0] : Fin 2 → Nat) a + S768x1024.size a ≤ S768x1024.size a
  h_S768x1024 : 0 < S768x1024.numel
  shapeCasts_S768x1024_S768x1024 : S768x1024.ShapeCasts S768x1024
  shapeCasts_S8x1024_S8x1x1024 : S8x1024.ShapeCasts S8x1x1024
  broadcasts_S8x128x1_S8x128x1024 : S8x128x1.Broadcasts S8x128x1024
  broadcasts_S8x1x1024_S8x128x1024 : S8x1x1024.Broadcasts S8x128x1024
  inb_S128x1024_S128x1024_0_0 : ∀ a, (![0, 0] : Fin 2 → Nat) a + S128x1024.size a ≤ S128x1024.size a
  h_S128x1024 : 0 < S128x1024.numel
  shapeCasts_S128x1024_S1x128x1024 : S128x1024.ShapeCasts S1x128x1024
  broadcasts_S1x128x1024_S8x128x1024 : S1x128x1024.Broadcasts S8x128x1024
  inb_S8x128x1024_S8x128x1024_0_0_0 : ∀ a, (![0, 0, 0] : Fin 3 → Nat) a + S8x128x1024.size a ≤ S8x128x1024.size a
  h_S8x128x1024 : 0 < S8x128x1024.numel
  bcast_S_S256x128 : S_.BroadcastsInDim S256x128 (![] : Fin 0 → Fin S256x128.rank)
  dot_S1024x256_S256x1024_S1024x1024_1_0_0_1_n_n_wf : DotDims.WF S1024x256 S256x1024 S1024x1024 [1] [0] [0] [1] [] []
  dot_S8x5_S5x256_S8x256_1_0_0_1_n_n_wf : DotDims.WF S8x5 S5x256 S8x256 [1] [0] [0] [1] [] []
  dot_S8x256_S256x1024_S8x1024_1_0_0_1_n_n_wf : DotDims.WF S8x256 S256x1024 S8x1024 [1] [0] [0] [1] [] []
  dot_S8x768_S768x1024_S8x1024_1_0_0_1_n_n_wf : DotDims.WF S8x768 S768x1024 S8x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128.size a ≤ S256x128.size a
  hwx0_0 : ∀ i : grid0.Coords, EltTy.bits .i32 = 32 ∨ (Rect.block (s := S256x128) S8x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S256x128.size a
  hwx0_1 : ∀ i : grid0.Coords, EltTy.bits .i32 = 32 ∨ (Rect.block (s := S256x128) S8x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x5.size a ≤ S256x5.size a
  hwx0_2 : ∀ i : grid0.Coords, EltTy.bits .f32 = 32 ∨ (Rect.block (s := S256x5) S8x5.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x768.size a ≤ S256x768.size a
  hwx0_3 : ∀ i : grid0.Coords, EltTy.bits .f32 = 32 ∨ (Rect.block (s := S256x768) S8x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x1024.size a
  hwx0_4 : ∀ i : grid0.Coords, EltTy.bits .bf16 = 32 ∨ (Rect.block (s := S256x1024) S256x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S256x1024.size a
  hwx0_5 : ∀ i : grid0.Coords, EltTy.bits .bf16 = 32 ∨ (Rect.block (s := S256x1024) S256x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S5x256.size a ≤ S5x256.size a
  hwx0_6 : ∀ i : grid0.Coords, EltTy.bits .bf16 = 32 ∨ (Rect.block (s := S5x256) S5x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S256x1024.size a
  hwx0_8 : ∀ i : grid0.Coords, EltTy.bits .bf16 = 32 ∨ (Rect.block (s := S256x1024) S256x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S768x1024.size a ≤ S768x1024.size a
  hwx0_10 : ∀ i : grid0.Coords, EltTy.bits .bf16 = 32 ∨ (Rect.block (s := S768x1024) S768x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x1024.size a ≤ S128x1024.size a
  hwx0_12 : ∀ i : grid0.Coords, EltTy.bits .f32 = 32 ∨ (Rect.block (s := S128x1024) S128x1024.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S8x128x1024.size a ≤ S256x128x1024.size a
  hwx0_13 : ∀ i : grid0.Coords, EltTy.bits .f32 = 32 ∨ (Rect.block (s := S256x128x1024) S8x128x1024.size (cc0_transform_13 i) (hinb0_13 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S8x5_S5x256_S8x256_1_0_0_1_n_n : DotDims S8x5 S5x256 S8x256 where
  lhsContracting := [1]
  rhsContracting := [0]
  lhsNonContracting := [0]
  rhsNonContracting := [1]
  lhsBatch := []
  rhsBatch := []
  wf := dot_S8x5_S5x256_S8x256_1_0_0_1_n_n_wf
def dot_S8x256_S256x1024_S8x1024_1_0_0_1_n_n : DotDims S8x256 S256x1024 S8x1024 where
  lhsContracting := [1]
  rhsContracting := [0]
  lhsNonContracting := [0]
  rhsNonContracting := [1]
  lhsBatch := []
  rhsBatch := []
  wf := dot_S8x256_S256x1024_S8x1024_1_0_0_1_n_n_wf
def dot_S8x768_S768x1024_S8x1024_1_0_0_1_n_n : DotDims S8x768 S768x1024 S8x1024 where
  lhsContracting := [1]
  rhsContracting := [0]
  lhsNonContracting := [0]
  rhsNonContracting := [1]
  lhsBatch := []
  rhsBatch := []
  wf := dot_S8x768_S768x1024_S8x1024_1_0_0_1_n_n_wf

abbrev win0_0 : Pipeline.Window sig grid0 :=
  Pipeline.Window.ofSpec (Memref.whole main_arg0) S8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x5.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S256x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S5x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S256x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S768x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S128x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v12) S8x128x1024.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S256x128 : Shape := ⟨2, ![256, 128]⟩
abbrev S256x5 : Shape := ⟨2, ![256, 5]⟩
abbrev S256x768 : Shape := ⟨2, ![256, 768]⟩
abbrev S5x1024 : Shape := ⟨2, ![5, 1024]⟩
abbrev S128x1024 : Shape := ⟨2, ![128, 1024]⟩
abbrev S5x256 : Shape := ⟨2, ![5, 256]⟩
abbrev S256 : Shape := ⟨1, ![256]⟩
abbrev S256x1024 : Shape := ⟨2, ![256, 1024]⟩
abbrev S1024 : Shape := ⟨1, ![1024]⟩
abbrev S768x1024 : Shape := ⟨2, ![768, 1024]⟩
abbrev S_ : Shape := ⟨0, ![]⟩
abbrev S256x128x1 : Shape := ⟨3, ![256, 128, 1]⟩
abbrev S256x128x1024 : Shape := ⟨3, ![256, 128, 1024]⟩
abbrev S256x256 : Shape := ⟨2, ![256, 256]⟩
abbrev S1x256 : Shape := ⟨2, ![1, 256]⟩
abbrev S1x1024 : Shape := ⟨2, ![1, 1024]⟩
abbrev S256x1x1024 : Shape := ⟨3, ![256, 1, 1024]⟩
abbrev S1x128x1024 : Shape := ⟨3, ![1, 128, 1024]⟩

abbrev nBuf : Space → Nat
  | .hbm => 64
  | .vmem => 0
  | .smem => 0
  | _ => 0

abbrev bufTy : (tb : Table) → Fin (tcTables nBuf tb) → BufTy
  | .hbm, ⟨0, _⟩ => ⟨S256x128, .i32⟩
  | .hbm, ⟨1, _⟩ => ⟨S256x128, .i32⟩
  | .hbm, ⟨2, _⟩ => ⟨S256x5, .f32⟩
  | .hbm, ⟨3, _⟩ => ⟨S256x768, .f32⟩
  | .hbm, ⟨4, _⟩ => ⟨S5x1024, .f32⟩
  | .hbm, ⟨5, _⟩ => ⟨S128x1024, .f32⟩
  | .hbm, ⟨6, _⟩ => ⟨S5x256, .f32⟩
  | .hbm, ⟨7, _⟩ => ⟨S256, .f32⟩
  | .hbm, ⟨8, _⟩ => ⟨S256x1024, .f32⟩
  | .hbm, ⟨9, _⟩ => ⟨S1024, .f32⟩
  | .hbm, ⟨10, _⟩ => ⟨S768x1024, .f32⟩
  | .hbm, ⟨11, _⟩ => ⟨S1024, .f32⟩
  | .hbm, ⟨12, _⟩ => ⟨S128x1024, .f32⟩
  | .hbm, ⟨13, _⟩ => ⟨S_, .i32⟩
  | .hbm, ⟨14, _⟩ => ⟨S256x128, .i32⟩
  | .hbm, ⟨15, _⟩ => ⟨S256x128, .i1⟩
  | .hbm, ⟨16, _⟩ => ⟨S_, .i32⟩
  | .hbm, ⟨17, _⟩ => ⟨S256x128, .i32⟩
  | .hbm, ⟨18, _⟩ => ⟨S256x128, .i32⟩
  | .hbm, ⟨19, _⟩ => ⟨S256x128, .i32⟩
  | .hbm, ⟨20, _⟩ => ⟨S256x128x1, .i32⟩
  | .hbm, ⟨21, _⟩ => ⟨S256x128x1024, .f32⟩
  | .hbm, ⟨22, _⟩ => ⟨S_, .i32⟩
  | .hbm, ⟨23, _⟩ => ⟨S256x128, .i32⟩
  | .hbm, ⟨24, _⟩ => ⟨S256x128, .i1⟩
  | .hbm, ⟨25, _⟩ => ⟨S_, .i32⟩
  | .hbm, ⟨26, _⟩ => ⟨S256x128, .i32⟩
  | .hbm, ⟨27, _⟩ => ⟨S256x128, .i32⟩
  | .hbm, ⟨28, _⟩ => ⟨S256x128, .i32⟩
  | .hbm, ⟨29, _⟩ => ⟨S256x128x1, .i32⟩
  | .hbm, ⟨30, _⟩ => ⟨S256x128x1024, .f32⟩
  | .hbm, ⟨31, _⟩ => ⟨S256x128x1024, .f32⟩
  | .hbm, ⟨32, _⟩ => ⟨S256x256, .f32⟩
  | .hbm, ⟨33, _⟩ => ⟨S1x256, .f32⟩
  | .hbm, ⟨34, _⟩ => ⟨S256x256, .f32⟩
  | .hbm, ⟨35, _⟩ => ⟨S256x256, .f32⟩
  | .hbm, ⟨36, _⟩ => ⟨S_, .f32⟩
  | .hbm, ⟨37, _⟩ => ⟨S256x256, .f32⟩
  | .hbm, ⟨38, _⟩ => ⟨S256x256, .f32⟩
  | .hbm, ⟨39, _⟩ => ⟨S256x1024, .f32⟩
  | .hbm, ⟨40, _⟩ => ⟨S1x1024, .f32⟩
  | .hbm, ⟨41, _⟩ => ⟨S256x1024, .f32⟩
  | .hbm, ⟨42, _⟩ => ⟨S256x1024, .f32⟩
  | .hbm, ⟨43, _⟩ => ⟨S256x1024, .f32⟩
  | .hbm, ⟨44, _⟩ => ⟨S1x1024, .f32⟩
  | .hbm, ⟨45, _⟩ => ⟨S256x1024, .f32⟩
  | .hbm, ⟨46, _⟩ => ⟨S256x1024, .f32⟩
  | .hbm, ⟨47, _⟩ => ⟨S_, .i32⟩
  | .hbm, ⟨48, _⟩ => ⟨S256x128, .i32⟩
  | .hbm, ⟨49, _⟩ => ⟨S256x128, .i1⟩
  | .hbm, ⟨50, _⟩ => ⟨S256x128x1, .i1⟩
  | .hbm, ⟨51, _⟩ => ⟨S256x1024, .f32⟩
  | .hbm, ⟨52, _⟩ => ⟨S256x1x1024, .f32⟩
  | .hbm, ⟨53, _⟩ => ⟨S256x128x1, .f32⟩
  | .hbm, ⟨54, _⟩ => ⟨S256x128x1024, .f32⟩
  | .hbm, ⟨55, _⟩ => ⟨S256x128x1024, .f32⟩
  | .hbm, ⟨56, _⟩ => ⟨S256x128x1024, .f32⟩
  | .hbm, ⟨57, _⟩ => ⟨S256x128x1024, .f32⟩
  | .hbm, ⟨58, _⟩ => ⟨S1x128x1024, .f32⟩
  | .hbm, ⟨59, _⟩ => ⟨S256x128x1024, .f32⟩
  | .hbm, ⟨60, _⟩ => ⟨S256x128x1024, .f32⟩
  | .hbm, ⟨61, _⟩ => ⟨S_, .i32⟩
  | .hbm, ⟨62, _⟩ => ⟨S256x128, .i32⟩
  | .hbm, ⟨63, _⟩ => ⟨S256x128, .i1⟩
  | _, _ => ⟨S256x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_3 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_4 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]

class Facts₀ : Prop where
  bcast_S_S256x128 : S_.BroadcastsInDim S256x128 (![] : Fin 0 → Fin S256x128.rank)
  bcast_S256x128_S256x128x1_0_1 : S256x128.BroadcastsInDim S256x128x1 (![0, 1] : Fin 2 → Fin S256x128x1.rank)
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  bcast_S_S256x256 : S_.BroadcastsInDim S256x256 (![] : Fin 0 → Fin S256x256.rank)
  bcast_S1024_S1x1024_1 : S1024.BroadcastsInDim S1x1024 (![1] : Fin 1 → Fin S1x1024.rank)
  bcast_S1x1024_S256x1024_0_1 : S1x1024.BroadcastsInDim S256x1024 (![0, 1] : Fin 2 → Fin S256x1024.rank)
  bcast_S256x1024_S256x1x1024_0_2 : S256x1024.BroadcastsInDim S256x1x1024 (![0, 2] : Fin 2 → Fin S256x1x1024.rank)
  bcast_S256x128x1_S256x128x1024_0_1_2 : S256x128x1.BroadcastsInDim S256x128x1024 (![0, 1, 2] : Fin 3 → Fin S256x128x1024.rank)
  bcast_S256x1x1024_S256x128x1024_0_1_2 : S256x1x1024.BroadcastsInDim S256x128x1024 (![0, 1, 2] : Fin 3 → Fin S256x128x1024.rank)
  bcast_S128x1024_S1x128x1024_1_2 : S128x1024.BroadcastsInDim S1x128x1024 (![1, 2] : Fin 2 → Fin S1x128x1024.rank)
  bcast_S1x128x1024_S256x128x1024_0_1_2 : S1x128x1024.BroadcastsInDim S256x128x1024 (![0, 1, 2] : Fin 3 → Fin S256x128x1024.rank)
  gather_S5x1024_S256x128x1_S256x128x1024_2_0_n_n_0_2_11024_wf : GatherDims.WF S5x1024 S256x128x1 S256x128x1024 [2] [0] [] [0] [] 2 ![1, 1024]
  gather_S128x1024_S256x128x1_S256x128x1024_2_0_n_n_0_2_11024_wf : GatherDims.WF S128x1024 S256x128x1 S256x128x1024 [2] [0] [] [0] [] 2 ![1, 1024]
  dot_S256x5_S5x256_S256x256_1_0_0_1_n_n_wf : DotDims.WF S256x5 S5x256 S256x256 [1] [0] [0] [1] [] []
  dot_S256x256_S256x1024_S256x1024_1_0_0_1_n_n_wf : DotDims.WF S256x256 S256x1024 S256x1024 [1] [0] [0] [1] [] []
  dot_S256x768_S768x1024_S256x1024_1_0_0_1_n_n_wf : DotDims.WF S256x768 S768x1024 S256x1024 [1] [0] [0] [1] [] []

variable [Facts₀]

def gather_S5x1024_S256x128x1_S256x128x1024_2_0_n_n_0_2_11024 : GatherDims S5x1024 S256x128x1 S256x128x1024 where
  offsetDims := [2]
  collapsedSliceDims := [0]
  operandBatchingDims := []
  startIndicesBatchingDims := []
  startIndexMap := [0]
  indexVectorDim := 2
  sliceSizes := ![1, 1024]
  wf := gather_S5x1024_S256x128x1_S256x128x1024_2_0_n_n_0_2_11024_wf
def gather_S128x1024_S256x128x1_S256x128x1024_2_0_n_n_0_2_11024 : GatherDims S128x1024 S256x128x1 S256x128x1024 where
  offsetDims := [2]
  collapsedSliceDims := [0]
  operandBatchingDims := []
  startIndicesBatchingDims := []
  startIndexMap := [0]
  indexVectorDim := 2
  sliceSizes := ![1, 1024]
  wf := gather_S128x1024_S256x128x1_S256x128x1024_2_0_n_n_0_2_11024_wf
def dot_S256x5_S5x256_S256x256_1_0_0_1_n_n : DotDims S256x5 S5x256 S256x256 where
  lhsContracting := [1]
  rhsContracting := [0]
  lhsNonContracting := [0]
  rhsNonContracting := [1]
  lhsBatch := []
  rhsBatch := []
  wf := dot_S256x5_S5x256_S256x256_1_0_0_1_n_n_wf
def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf
def dot_S256x768_S768x1024_S256x1024_1_0_0_1_n_n : DotDims S256x768 S768x1024 S256x1024 where
  lhsContracting := [1]
  rhsContracting := [0]
  lhsNonContracting := [0]
  rhsNonContracting := [1]
  lhsBatch := []
  rhsBatch := []
  wf := dot_S256x768_S768x1024_S256x1024_1_0_0_1_n_n_wf

class Facts : Prop extends Facts₀ where

variable [Facts]
-- ==== Proof.BlockReads.lean ====
/-
  WHERE EACH GRID POINT READS AND WRITES. Point `t` of the 32 reads rows `8t … 8t + 7` of the four per-row inputs
  (type indices, position indices, style vectors, page captions), reads the nine table and weight arrays whole, and
  writes rows `8t … 8t + 7` of the result. So entry `(p, ·)` of a per-row block is entry `(8t + p, ·)` of its array,
  and an entry of a whole-array block is the same entry of the array.
-/
import proofs.«425483_j12970801234299_3_alg».proof.Proof.Gen.KernelIdeal.Frame
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The printed index maps, decided once over the grid. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 3) = t.val ∧ win0_13.index t (1 : Fin 3) = 0 ∧ win0_13.index t (2 : Fin 3) = 0 :=
  (by decide +kernel : ∀ t : Fin grid0.N, _)

/-- The global row of block row `p` at point `t`. -/
def row (t : Fin cfg0.N) (p : Fin 8) : Fin 256 :=
  ⟨8 * t.val + p.val, by have ht : t.val < 32 := lt_of_lt_of_eq t.isLt N_0; have := p.isLt; omega⟩

theorem blk_types (c : Dev nD) (t : Fin cfg0.N) (p : Fin 8) (s : Fin 128) :
    iblk m c 0 t (ix2 p s) = (m ((c : Thread nD τ).loc main_arg0) : S256x128.Idx → BitVec 32) (ix2 (row t p) s) := by
  obtain ⟨a0, b0, a1, b1, a2, b2, a3, b3, a4, b4, a5, b5, a6, b6, a7, b7, a8, b8, a9, b9, a10, b10, a11, b11, a12, b12, a13, b13, c13⟩ := idx_facts t
  show V m c main_arg0 (((cfg0.win 0).blk t).view.emb (ix2 p s)) = _
  rw [V_main_arg0]
  refine congrArg _ (funext fun a => Fin.ext ?_)
  match a with
  | ⟨0, _⟩ => show win0_0.index t (0 : Fin 2) * 8 + 1 * p.val = 8 * t.val + p.val; omega
  | ⟨1, _⟩ => show win0_0.index t (1 : Fin 2) * 128 + 1 * s.val = s.val; omega

theorem blk_idxs (c : Dev nD) (t : Fin cfg0.N) (p : Fin 8) (s : Fin 128) :
    iblk m c 1 t (ix2 p s) = (m ((c : Thread nD τ).loc main_arg1) : S256x128.Idx → BitVec 32) (ix2 (row t p) s) := by
  obtain ⟨a0, b0, a1, b1, a2, b2, a3, b3, a4, b4, a5, b5, a6, b6, a7, b7, a8, b8, a9, b9, a10, b10, a11, b11, a12, b12, a13, b13, c13⟩ := idx_facts t
  show V m c main_arg1 (((cfg0.win 1).blk t).view.emb (ix2 p s)) = _
  rw [V_main_arg1]
  refine congrArg _ (funext fun a => Fin.ext ?_)
  match a with
  | ⟨0, _⟩ => show win0_1.index t (0 : Fin 2) * 8 + 1 * p.val = 8 * t.val + p.val; omega
  | ⟨1, _⟩ => show win0_1.index t (1 : Fin 2) * 128 + 1 * s.val = s.val; omega

theorem blk_style (c : Dev nD) (t : Fin cfg0.N) (p : Fin 8) (s : Fin 5) :
    iblk m c 2 t (ix2 p s) = (m ((c : Thread nD τ).loc main_arg2) : S256x5.Idx → EReal) (ix2 (row t p) s) := by
  obtain ⟨a0, b0, a1, b1, a2, b2, a3, b3, a4, b4, a5, b5, a6, b6, a7, b7, a8, b8, a9, b9, a10, b10, a11, b11, a12, b12, a13, b13, c13⟩ := idx_facts t
  show V m c main_arg2 (((cfg0.win 2).blk t).view.emb (ix2 p s)) = _
  rw [V_main_arg2]
  refine congrArg _ (funext fun a => Fin.ext ?_)
  match a with
  | ⟨0, _⟩ => show win0_2.index t (0 : Fin 2) * 8 + 1 * p.val = 8 * t.val + p.val; omega
  | ⟨1, _⟩ => show win0_2.index t (1 : Fin 2) * 5 + 1 * s.val = s.val; omega

theorem blk_page (c : Dev nD) (t : Fin cfg0.N) (p : Fin 8) (s : Fin 768) :
    iblk m c 3 t (ix2 p s) = (m ((c : Thread nD τ).loc main_arg3) : S256x768.Idx → EReal) (ix2 (row t p) s) := by
  obtain ⟨a0, b0, a1, b1, a2, b2, a3, b3, a4, b4, a5, b5, a6, b6, a7, b7, a8, b8, a9, b9, a10, b10, a11, b11, a12, b12, a13, b13, c13⟩ := idx_facts t
  show V m c main_arg3 (((cfg0.win 3).blk t).view.emb (ix2 p s)) = _
  rw [V_main_arg3]
  refine congrArg _ (funext fun a => Fin.ext ?_)
  match a with
  | ⟨0, _⟩ => show win0_3.index t (0 : Fin 2) * 8 + 1 * p.val = 8 * t.val + p.val; omega
  | ⟨1, _⟩ => show win0_3.index t (1 : Fin 2) * 768 + 1 * s.val = s.val; omega

theorem blk_hi (c : Dev nD) (t : Fin cfg0.N) (k : Fin 256) (j : Fin 1024) :
    iblk m c 4 t (ix2 k j) = (V m c main_v2 : S256x1024.Idx → EReal) (ix2 k j) := by
  obtain ⟨a0, b0, a1, b1, a2, b2, a3, b3, a4, b4, a5, b5, a6, b6, a7, b7, a8, b8, a9, b9, a10, b10, a11, b11, a12, b12, a13, b13, c13⟩ := idx_facts t
  show V m c main_v2 (((cfg0.win 4).blk t).view.emb (ix2 k j)) = _
  refine congrArg _ (funext fun a => Fin.ext ?_)
  match a with
  | ⟨0, _⟩ => show win0_4.index t (0 : Fin 2) * 256 + 1 * k.val = k.val; omega
  | ⟨1, _⟩ => show win0_4.index t (1 : Fin 2) * 1024 + 1 * j.val = j.val; omega

theorem blk_lo (c : Dev nD) (t : Fin cfg0.N) (k : Fin 256) (j : Fin 1024) :
    iblk m c 5 t (ix2 k j) = (V m c main_v5 : S256x1024.Idx → EReal) (ix2 k j) := by
  obtain ⟨a0, b0, a1, b1, a2, b2, a3, b3, a4, b4, a5, b5, a6, b6, a7, b7, a8, b8, a9, b9, a10, b10, a11, b11, a12, b12, a13, b13, c13⟩ := idx_facts t
  show V m c main_v5 (((cfg0.win 5).blk t).view.emb (ix2 k j)) = _
  refine congrArg _ (funext fun a => Fin.ext ?_)
  match a with
  | ⟨0, _⟩ => show win0_5.index t (0 : Fin 2) * 256 + 1 * k.val = k.val; omega
  | ⟨1, _⟩ => show win0_5.index t (1 : Fin 2) * 1024 + 1 * j.val = j.val; omega

theorem blk_w1 (c : Dev nD) (t : Fin cfg0.N) (k : Fin 5) (j : Fin 256) :
    iblk m c 6 t (ix2 k j) = (V m c main_v6 : S5x256.Idx → EReal) (ix2 k j) := by
  obtain ⟨a0, b0, a1, b1, a2, b2, a3, b3, a4, b4, a5, b5, a6, b6, a7, b7, a8, b8, a9, b9, a10, b10, a11, b11, a12, b12, a13, b13, c13⟩ := idx_facts t
  show V m c main_v6 (((cfg0.win 6).blk t).view.emb (ix2 k j)) = _
  refine congrArg _ (funext fun a => Fin.ext ?_)
  match a with
  | ⟨0, _⟩ => show win0_6.index t (0 : Fin 2) * 5 + 1 * k.val = k.val; omega
  | ⟨1, _⟩ => show win0_6.index t (1 : Fin 2) * 256 + 1 * j.val = j.val; omega

theorem blk_b1 (c : Dev nD) (t : Fin cfg0.N) (k : Fin 1) (j : Fin 256) :
    iblk m c 7 t (ix2 k j) = (V m c main_v9 : S1x256.Idx → EReal) (ix2 k j) := by
  obtain ⟨a0, b0, a1, b1, a2, b2, a3, b3, a4, b4, a5, b5, a6, b6, a7, b7, a8, b8, a9, b9, a10, b10, a11, b11, a12, b12, a13, b13, c13⟩ := idx_facts t
  show V m c main_v9 (((cfg0.win 7).blk t).view.emb (ix2 k j)) = _
  refine congrArg _ (funext fun a => Fin.ext ?_)
  match a with
  | ⟨0, _⟩ => show win0_7.index t (0 : Fin 2) * 1 + 1 * k.val = k.val; omega
  | ⟨1, _⟩ => show win0_7.index t (1 : Fin 2) * 256 + 1 * j.val = j.val; omega

theorem blk_w2 (c : Dev nD) (t : Fin cfg0.N) (k : Fin 256) (j : Fin 1024) :
    iblk m c 8 t (ix2 k j) = (V m c main_v7 : S256x1024.Idx → EReal) (ix2 k j) := by
  obtain ⟨a0, b0, a1, b1, a2, b2, a3, b3, a4, b4, a5, b5, a6, b6, a7, b7, a8, b8, a9, b9, a10, b10, a11, b11, a12, b12, a13, b13, c13⟩ := idx_facts t
  show V m c main_v7 (((cfg0.win 8).blk t).view.emb (ix2 k j)) = _
  refine congrArg _ (funext fun a => Fin.ext ?_)
  match a with
  | ⟨0, _⟩ => show win0_8.index t (0 : Fin 2) * 256 + 1 * k.val = k.val; omega
  | ⟨1, _⟩ => show win0_8.index t (1 : Fin 2) * 1024 + 1 * j.val = j.val; omega

theorem blk_b2 (c : Dev nD) (t : Fin cfg0.N) (k : Fin 1) (j : Fin 1024) :
    iblk m c 9 t (ix2 k j) = (V m c main_v10 : S1x1024.Idx → EReal) (ix2 k j) := by
  obtain ⟨a0, b0, a1, b1, a2, b2, a3, b3, a4, b4, a5, b5, a6, b6, a7, b7, a8, b8, a9, b9, a10, b10, a11, b11, a12, b12, a13, b13, c13⟩ := idx_facts t
  show V m c main_v10 (((cfg0.win 9).blk t).view.emb (ix2 k j)) = _
  refine congrArg _ (funext fun a => Fin.ext ?_)
  match a with
  | ⟨0, _⟩ => show win0_9.index t (0 : Fin 2) * 1 + 1 * k.val = k.val; omega
  | ⟨1, _⟩ => show win0_9.index t (1 : Fin 2) * 1024 + 1 * j.val = j.val; omega

theorem blk_tw (c : Dev nD) (t : Fin cfg0.N) (k : Fin 768) (j : Fin 1024) :
    iblk m c 10 t (ix2 k j) = (V m c main_v8 : S768x1024.Idx → EReal) (ix2 k j) := by
  obtain ⟨a0, b0, a1, b1, a2, b2, a3, b3, a4, b4, a5, b5, a6, b6, a7, b7, a8, b8, a9, b9, a10, b10, a11, b11, a12, b12, a13, b13, c13⟩ := idx_facts t
  show V m c main_v8 (((cfg0.win 10).blk t).view.emb (ix2 k j)) = _
  refine congrArg _ (funext fun a => Fin.ext ?_)
  match a with
  | ⟨0, _⟩ => show win0_10.index t (0 : Fin 2) * 768 + 1 * k.val = k.val; omega
  | ⟨1, _⟩ => show win0_10.index t (1 : Fin 2) * 1024 + 1 * j.val = j.val; omega

theorem blk_tb (c : Dev nD) (t : Fin cfg0.N) (k : Fin 1) (j : Fin 1024) :
    iblk m c 11 t (ix2 k j) = (V m c main_v11 : S1x1024.Idx → EReal) (ix2 k j) := by
  obtain ⟨a0, b0, a1, b1, a2, b2, a3, b3, a4, b4, a5, b5, a6, b6, a7, b7, a8, b8, a9, b9, a10, b10, a11, b11, a12, b12, a13, b13, c13⟩ := idx_facts t
  show V m c main_v11 (((cfg0.win 11).blk t).view.emb (ix2 k j)) = _
  refine congrArg _ (funext fun a => Fin.ext ?_)
  match a with
  | ⟨0, _⟩ => show win0_11.index t (0 : Fin 2) * 1 + 1 * k.val = k.val; omega
  | ⟨1, _⟩ => show win0_11.index t (1 : Fin 2) * 1024 + 1 * j.val = j.val; omega

theorem blk_fpos (c : Dev nD) (t : Fin cfg0.N) (k : Fin 128) (j : Fin 1024) :
    iblk m c 12 t (ix2 k j) = (V m c main_arg12 : S128x1024.Idx → EReal) (ix2 k j) := by
  obtain ⟨a0, b0, a1, b1, a2, b2, a3, b3, a4, b4, a5, b5, a6, b6, a7, b7, a8, b8, a9, b9, a10, b10, a11, b11, a12, b12, a13, b13, c13⟩ := idx_facts t
  show V m c main_arg12 (((cfg0.win 12).blk t).view.emb (ix2 k j)) = _
  refine congrArg _ (funext fun a => Fin.ext ?_)
  match a with
  | ⟨0, _⟩ => show win0_12.index t (0 : Fin 2) * 128 + 1 * k.val = k.val; omega
  | ⟨1, _⟩ => show win0_12.index t (1 : Fin 2) * 1024 + 1 * j.val = j.val; omega

/-- The array index of entry `(p, s, j)` of the result's block at point `t`. -/
theorem out_emb (t : Fin cfg0.N) (p : Fin 8) (s : Fin 128) (j : Fin 1024) :
    ((cfg0.win 13).blk t).view.emb (ix3 p s j) = (ix3 (row t p) s j : S256x128x1024.Idx) := by
  obtain ⟨a0, b0, a1, b1, a2, b2, a3, b3, a4, b4, a5, b5, a6, b6, a7, b7, a8, b8, a9, b9, a10, b10, a11, b11, a12, b12, a13, b13, c13⟩ := idx_facts t
  refine funext fun a => Fin.ext ?_
  match a with
  | ⟨0, _⟩ => show win0_13.index t (0 : Fin 3) * 8 + 1 * p.val = 8 * t.val + p.val; omega
  | ⟨1, _⟩ => show win0_13.index t (1 : Fin 3) * 128 + 1 * s.val = s.val; omega
  | ⟨2, _⟩ => show win0_13.index t (2 : Fin 3) * 1024 + 1 * j.val = j.val; omega

end Cert.KernelIdeal.Blocks

end
-- ==== Proof.LibRowGather.lean ====
/-
  A `stablehlo.gather` that takes whole ROWS of a rank-2 table — what `table[idx]` of a table `[N, D]` at an integer
  array `idx : [R, C]` lowers to (offset axis the last one, the row axis collapsed, start indices `[R, C, 1]`) —
  read at a result index `(r, c, j)`: the table's entry in column `j` of the row named by the start index
  `idx[r, c, 0]`, that index read as a signed integer and clamped into `[0, N − 1]` (a negative start index reads
  row 0, one past the end reads the last row).
-/
import Idealize.ShloMosaic.PureOps.Ideal
import Idealize.ShloMosaic.Lib.ValueIdx

noncomputable section

namespace Cert.Lib.RowGather

open Idealize.ShloMosaic Idealize.ShloMosaic.ValueIdx

variable {α : Type}

/-- The dimension numbers of a row gather for a table `[N, D]`, start indices `[R, C, 1]` and result `[R, C, D]`. -/
abbrev rowDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- The row a start index names in a table of `N` rows: the word read signed, clamped into `[0, N − 1]`. -/
def rowOf (N : Nat) (hN : 0 < N) {w : Nat} (t : BitVec w) : Fin N := ⟨min t.toInt.toNat (N - 1), by omega⟩

/-- On the table's row axis the operand coordinate is the clamped start index (nothing is added: the axis is collapsed). -/
theorem row_axis {N D R C w : Nat} (hN : 0 < N)
    (wf : GatherDims.WF ⟨2, ![N, D]⟩ ⟨3, ![R, C, 1]⟩ ⟨3, ![R, C, D]⟩ [2] [0] [] [0] [] 2 ![1, D])
    (idx : IVec ⟨3, ![R, C, 1]⟩ w) (r : Fin R) (c : Fin C) (j : Fin D) :
    (rowDims N D R C wf).start (ix3 r c j) idx (0 : Fin 2) + (rowDims N D R C wf).batchCoord (ix3 r c j) (0 : Fin 2)
      + (rowDims N D R C wf).offCoord (ix3 r c j) (0 : Fin 2)
      = (rowOf N hN (idx (ix3 r c (⟨0, Nat.one_pos⟩ : Fin 1)))).val := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N D R C wf).startIndexMap from List.mem_singleton.mpr rfl)]
  have hsi : (rowDims N D R C wf).siIdx (ix3 r c j) ⟨List.idxOf (0 : Fin 2) (rowDims N D R C wf).startIndexMap,
      List.idxOf_lt_length_iff.2 (List.mem_singleton.mpr rfl)⟩ = ix3 r c (⟨0, Nat.one_pos⟩ : Fin 1) := by
    funext b; refine Fin.ext ?_
    match b with
    | ⟨0, _⟩ => rfl
    | ⟨1, _⟩ => rfl
    | ⟨2, _⟩ => rfl
  rw [hsi]
  rfl

/-- On the table's column axis the operand coordinate is the result's offset coordinate (no start index names it). -/
theorem col_axis {N D R C w : Nat}
    (wf : GatherDims.WF ⟨2, ![N, D]⟩ ⟨3, ![R, C, 1]⟩ ⟨3, ![R, C, D]⟩ [2] [0] [] [0] [] 2 ![1, D])
    (idx : IVec ⟨3, ![R, C, 1]⟩ w) (r : Fin R) (c : Fin C) (j : Fin D) :
    (rowDims N D R C wf).start (ix3 r c j) idx (1 : Fin 2) + (rowDims N D R C wf).batchCoord (ix3 r c j) (1 : Fin 2)
      + (rowDims N D R C wf).offCoord (ix3 r c j) (1 : Fin 2) = j.val := by
  rw [GatherDims.batchCoord_eq_zero _ _ _ List.not_mem_nil]
  have hs : (rowDims N D R C wf).start (ix3 r c j) idx (1 : Fin 2) = 0 := by
    unfold GatherDims.start
    rw [dif_neg (show (1 : Fin 2) ∉ (rowDims N D R C wf).startIndexMap from
      fun h => absurd (List.mem_singleton.mp h) (fun e => Nat.one_ne_zero (congrArg Fin.val e)))]
  have ho : (rowDims N D R C wf).offCoord (ix3 r c j) (1 : Fin 2) = j.val := by
    unfold GatherDims.offCoord
    rw [dif_pos (show (1 : Fin 2) ∈ (rowDims N D R C wf).sKept from (GatherDims.mem_sKept _ _).mpr
      ⟨fun h => absurd (List.mem_singleton.mp h) (fun e => Nat.one_ne_zero (congrArg Fin.val e)), List.not_mem_nil⟩)]
    rfl
  rw [hs, ho]
  simp

/-- THE ROW GATHER READ AT `(r, c, j)`: column `j` of the table's row `rowOf N (idx[r, c, 0])`. -/
theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (r : Fin R) (c : Fin C) (j : Fin D) :
    Host.gather (rowDims N D R C wf) x idx (ix3 r c j)
      = x (ix2 (rowOf N hN (idx (ix3 r c (⟨0, Nat.one_pos⟩ : Fin 1)))) j) := by
  unfold Host.gather
  congr 1
  funext a
  refine Fin.ext ?_
  match a with
  | ⟨0, _⟩ => exact row_axis hN wf idx r c j
  | ⟨1, _⟩ => exact col_axis wf idx r c j

end Cert.Lib.RowGather

end
-- ==== Proof.Spec.lean ====
/-
  WHAT BOTH PROGRAMS COMPUTE, as one function over the extended reals.

  For a batch row `b`, a position `s` and a feature `j`:

    emb[b, s, j] = ((type_emb[row₅ types[b,s], j] + pos_emb[row₁₂₈ idxs[b,s], j])
                      + [types[b,s] = 1] · (styleEmbed[b, j] + pageEmbed[b, j])) + final_pos[s, j]

  where `rowₙ t` is the table row a start index `t` names (read signed, clamped into `[0, n − 1]`),
  `styleEmbed = max (style · w1 + b1) 0 · w2 + b2` and `pageEmbed = page · text_w + text_b` (plain matrix products,
  written as sums over the contracted index).

  The kernel does both table lookups by ONE product of a row of zeros and ones with a 256-row table (`embTab`: rows
  0–127 the position table, rows 128–132 the type table, the rest zero), and does that product twice, over a table and
  over a remainder table, adding the two; `table` is the stacked table.
-/
import Idealize.ShloMosaic.PureOps.Ideal
import Idealize.ShloMosaic.Lib.ValueIdx
import proofs.«425483_j12970801234299_3_alg».proof.Proof.LibRowGather

noncomputable section

open scoped BigOperators

namespace Cert.Spec

open Idealize.ShloMosaic Cert.Lib.RowGather

/-- `1` where the word is the integer one, else `0`. -/
def isOne (t : BitVec 32) : EReal := if t = 1#32 then 1 else 0

section
variable {B : Nat}
variable (types idxs : Fin B → Fin 128 → BitVec 32) (style : Fin B → Fin 5 → EReal) (page : Fin B → Fin 768 → EReal)
  (w1 : Fin 5 → Fin 256 → EReal) (b1 : Fin 256 → EReal) (w2 : Fin 256 → Fin 1024 → EReal) (b2 : Fin 1024 → EReal)
  (tw : Fin 768 → Fin 1024 → EReal) (tb : Fin 1024 → EReal) (fpos : Fin 128 → Fin 1024 → EReal)

/-- The hidden layer of the style network: `max (style · w1 + b1) 0`. -/
def hidden (b : Fin B) (k : Fin 256) : EReal := max ((∑ l : Fin 5, style b l * w1 l k) + b1 k) 0

/-- `hidden · w2 + b2`. -/
def styleEmbed (b : Fin B) (j : Fin 1024) : EReal := (∑ k : Fin 256, hidden style w1 b1 b k * w2 k j) + b2 j

/-- `page · text_w + text_b`. -/
def pageEmbed (b : Fin B) (j : Fin 1024) : EReal := (∑ l : Fin 768, page b l * tw l j) + tb j

/-- The per-row vector added where the type is 1. -/
def stylePage (b : Fin B) (j : Fin 1024) : EReal :=
  styleEmbed style w1 b1 w2 b2 b j + pageEmbed page tw tb b j

/-- The result with the two lookups read straight off their tables. -/
def emb (temb : Fin 5 → Fin 1024 → EReal) (pemb : Fin 128 → Fin 1024 → EReal) (b : Fin B) (s : Fin 128) (j : Fin 1024) : EReal :=
  ((temb (rowOf 5 (by decide) (types b s)) j + pemb (rowOf 128 (by decide) (idxs b s)) j)
    + isOne (types b s) * stylePage style page w1 b1 w2 b2 tw tb b j) + fpos s j

/-- The result with the two lookups read off a stacked 256-row table, once from `hi` and once from `lo`. -/
def embTab (hi lo : Fin 256 → Fin 1024 → EReal) (b : Fin B) (s : Fin 128) (j : Fin 1024) : EReal :=
  (((hi ⟨(rowOf 128 (by decide) (idxs b s)).val, by have := (rowOf 128 (by decide) (idxs b s)).isLt; omega⟩ j
        + hi ⟨128 + (rowOf 5 (by decide) (types b s)).val, by have := (rowOf 5 (by decide) (types b s)).isLt; omega⟩ j)
      + (lo ⟨(rowOf 128 (by decide) (idxs b s)).val, by have := (rowOf 128 (by decide) (idxs b s)).isLt; omega⟩ j
        + lo ⟨128 + (rowOf 5 (by decide) (types b s)).val, by have := (rowOf 5 (by decide) (types b s)).isLt; omega⟩ j))
    + isOne (types b s) * stylePage style page w1 b1 w2 b2 tw tb b j) + fpos s j
end

/-- The stacked table: the position table's 128 rows, then the type table's 5 rows, then zeros. -/
def table (pemb : Fin 128 → Fin 1024 → EReal) (temb : Fin 5 → Fin 1024 → EReal) (k : Fin 256) (j : Fin 1024) : EReal :=
  if h : k.val < 128 then pemb ⟨k.val, h⟩ j
  else if h5 : k.val - 128 < 5 then temb ⟨k.val - 128, h5⟩ j else 0

end Cert.Spec

end
-- ==== Proof.PayloadGather.lean ====
/-
  THE TWO TABLE LOOKUPS AS ONE PRODUCT. The body builds, for block row `p` and position `s`, a row of 256 zeros and
  ones — a one in column `k < 128` where `k` is the position index clamped into `[0, 127]`, a one in column `128 + k`
  where `k` is the type index clamped into `[0, 4]` — and multiplies it with a 256-row table, twice (tables `x4` and
  `x5`), adding the products. Element `(p, s, j)` is therefore the two named rows of `x4` plus the two named rows of `x5`,
  in column `j`. For a non-negative index the clamp is the row a gather would read (`rowOf`).
-/
import proofs.«425483_j12970801234299_3_alg».proof.Proof.Gen.KernelIdeal.Frame
import proofs.«425483_j12970801234299_3_alg».proof.Proof.Spec
import Idealize.ShloMosaic.PureOps.Ideal.Laws
import Idealize.ShloMosaic.Lib.ValueIdx
import Idealize.ShloMosaic.Lib.Pipeline.Value

noncomputable section

open scoped BigOperators

namespace Cert.KernelIdeal.Payload

open Cert.KernelIdeal Cert.KernelIdeal.Gen Idealize.ShloMosaic Idealize.ShloMosaic.ValueIdx Cert.Lib.RowGather

/-- The stacked table's row of a position index. -/
def posRow (t : BitVec 32) : Fin 256 :=
  ⟨(rowOf 128 (by decide) t).val, by have := (rowOf 128 (by decide) t).isLt; omega⟩
/-- The stacked table's row of a type index. -/
def typeRow (t : BitVec 32) : Fin 256 :=
  ⟨128 + (rowOf 5 (by decide) t).val, by have := (rowOf 5 (by decide) t).isLt; omega⟩

/-! ## Words: the clamp, and the one-hot entry -/

/-- A word that reads as a non-negative integer reads as its natural number, below 2^31. -/
private theorem toInt_of_nonneg (t : BitVec 32) (ht : 0 ≤ t.toInt) : t.toInt = (t.toNat : Int) ∧ t.toNat < 2147483648 := by
  have hlt := t.isLt
  rw [BitVec.toInt_eq_toNat_cond] at ht ⊢
  by_cases h : 2 * t.toNat < 2 ^ 32
  · rw [if_pos h]; exact ⟨rfl, by omega⟩
  · rw [if_neg h] at ht; omega

/-- The clamp of a non-negative word into `[0, hi]`: its natural number is the smaller of the word and `hi`. -/
private theorem clip_toNat (hi : Nat) (hhi : hi < 2147483648) (t : BitVec 32) (ht : 0 ≤ t.toInt) :
    (IntOp.minsi (BitVec.ofNat 32 hi) (IntOp.maxsi 0#32 t)).toNat = min t.toInt.toNat hi := by
  obtain ⟨e, hlt⟩ := toInt_of_nonneg t ht
  have hhiInt : (BitVec.ofNat 32 hi).toInt = (hi : Int) := by
    rw [BitVec.toInt_eq_toNat_cond, BitVec.toNat_ofNat]
    have : hi % 2 ^ 32 = hi := Nat.mod_eq_of_lt (by omega)
    rw [this, if_pos (by omega)]
  have hhiNat : (BitVec.ofNat 32 hi).toNat = hi := by
    rw [BitVec.toNat_ofNat]; exact Nat.mod_eq_of_lt (by omega)
  have h0 : t.slt 0#32 = false := by
    rw [BitVec.slt, decide_eq_false_iff_not]
    show ¬ t.toInt < (0#32 : BitVec 32).toInt
    rw [show (0#32 : BitVec 32).toInt = 0 from by decide]
    omega
  unfold IntOp.minsi IntOp.maxsi
  rw [h0]
  simp only [Bool.false_eq_true, if_false]
  by_cases hc : (BitVec.ofNat 32 hi).slt t = true
  · rw [if_pos hc, hhiNat]
    rw [BitVec.slt, decide_eq_true_eq, hhiInt, e] at hc
    omega
  · rw [if_neg hc]
    rw [BitVec.slt, decide_eq_true_eq, hhiInt, e] at hc
    omega

/-- A 32-bit word is the word of a small natural number exactly when that is its natural number. -/
private theorem eq_ofNat_iff (c : BitVec 32) (k : Nat) (hk : k < 4294967296) : c = BitVec.ofNat 32 k ↔ c.toNat = k := by
  constructor
  · intro h
    rw [h, BitVec.toNat_ofNat]
    exact Nat.mod_eq_of_lt (by omega)
  · intro h
    apply BitVec.eq_of_toNat_eq
    rw [BitVec.toNat_ofNat, h]
    exact (Nat.mod_eq_of_lt (by omega)).symm

/-- The one-hot entry: the comparison bit, widened and converted, is one where the words agree and zero elsewhere. -/
private theorem onehot_entry (c d : BitVec 32) :
    FloatOps.sitofp (F := Ideal) .f32 ((IntOp.cmpi .eq c d).setWidth 32) = if c = d then (1 : EReal) else 0 := by
  show (((((IntOp.cmpi .eq c d).setWidth 32).toInt : ℝ)) : EReal) = _
  unfold IntOp.cmpi
  by_cases h : c = d
  · rw [if_pos h]
    have : (c == d) = true := by rw [h]; exact beq_self_eq_true d
    simp only [this]
    rw [show ((BitVec.ofBool true).setWidth 32).toInt = 1 from by decide]
    norm_num
  · rw [if_neg h]
    have : (c == d) = false := by
      rcases hb : (c == d) with _ | _
      · rfl
      · exact absurd (eq_of_beq hb) h
    simp only [this]
    rw [show ((BitVec.ofBool false).setWidth 32).toInt = 0 from by decide]
    norm_num

/-- A sum against a row that is one in column `a` and zero elsewhere picks the `a`-th term. -/
private theorem sum_onehot {n : Nat} (a : Fin n) (f : Fin n → EReal) :
    ∑ k : Fin n, (if a = k then (1 : EReal) else 0) * f k = f a := by
  rw [Finset.sum_eq_single a]
  · rw [if_pos rfl, one_mul]
  · intro b _ hb
    rw [if_neg (fun h => hb h.symm), zero_mul]
  · intro h
    exact absurd (Finset.mem_univ a) h

/-- A sum over 256 columns is the sum over the first 128 plus the sum over the last 128. -/
private theorem sum_split (f : Fin 256 → EReal) :
    ∑ k : Fin 256, f k = (∑ k : Fin 128, f ⟨k.val, by have := k.isLt; omega⟩)
      + ∑ k : Fin 128, f ⟨128 + k.val, by have := k.isLt; omega⟩ :=
  Fin.sum_univ_add (a := 128) (b := 128) f

/-! ## The row of zeros and ones -/

/-- The index array clamped into `[0, hi]`, as the body computes it. -/
private def clipV (hi : BitVec 32) (x : IVec S8x128 32) : IVec S8x128 32 :=
  minsi (broadcast S8x128 hi) (maxsi (broadcast S8x128 0#32) x)

/-- The 128 columns of zeros and ones of an index array: one where the column number is the index. -/
private def onehotV (c : IVec S8x128 32) : FVec Ideal S8x128x128 .bf16 :=
  truncf .bf16 (sitofp .f32 (extui 32 (cmpi .eq
    (broadcastTo S8x128x128 (shapeCast S8x128x1 c shapeCasts_S8x128_S8x128x1) broadcasts_S8x128x1_S8x128x128)
    (iota .tc S8x128x128 32 [2] iota_S8x128x128_d2_w32)) natLt_1_32)) bitsLt_bf16_f32

/-- The product's left operand: the position columns, then the type columns, rows numbered `128 p + s`. -/
private def lhsV (x0 x1 : IVec S8x128 32) : FVec Ideal S1024x256 .bf16 :=
  shapeCast S1024x256 (concatenate S8x128x256 2 [⟨S8x128x128, onehotV (clipV 127#32 x1)⟩, ⟨S8x128x128, onehotV (clipV 4#32 x0)⟩]
    concatenates_S8x128x128_S8x128x128_S8x128x256_d2) shapeCasts_S8x128x256_S1024x256

/-- The payload is the sum of the two products of that operand with the two tables, rows regrouped. -/
private theorem pay1_eq (x0 x1 : IVec S8x128 32) (x4 x5 : FVec Ideal S256x1024 .bf16) :
    k0_pay1 (F := Ideal) x0 x1 x4 x5
      = shapeCast S8x128x1024 (addf
          (matmul dot_S1024x256_S256x1024_S1024x1024_1_0_0_1_n_n none (lhsV x0 x1)
            (shapeCast S256x1024 x4 shapeCasts_S256x1024_S256x1024) (constant (F := Ideal) S1024x1024 .f32 0x00000000#32))
          (matmul dot_S1024x256_S256x1024_S1024x1024_1_0_0_1_n_n none (lhsV x0 x1)
            (shapeCast S256x1024 x5 shapeCasts_S256x1024_S256x1024) (constant (F := Ideal) S1024x1024 .f32 0x00000000#32)))
          shapeCasts_S1024x1024_S8x128x1024 := rfl

/-- The clamped array at `(p, s)`. -/
private theorem clipV_apply (hi : BitVec 32) (x : IVec S8x128 32) (p : Fin 8) (s : Fin 128) :
    clipV hi x (ix2 p s) = IntOp.minsi hi (IntOp.maxsi 0#32 (x (ix2 p s))) := rfl

/-- The columns of zeros and ones at `(p, s, k)`: one exactly where the index at `(p, s)` is the word of `k`. -/
private theorem onehotV_apply (c : IVec S8x128 32) (p : Fin 8) (s : Fin 128) (k : Fin 128) :
    onehotV c (ix3 p s k) = if c (ix2 p s) = BitVec.ofNat 32 k.val then (1 : EReal) else 0 := by
  have hb : broadcastTo S8x128x128 (shapeCast S8x128x1 c shapeCasts_S8x128_S8x128x1) broadcasts_S8x128x1_S8x128x128 (ix3 p s k)
      = c (ix2 p s) := by
    refine (broadcastTo_apply _ broadcasts_S8x128x1_S8x128x128 (ix3 p s k) (ix3 p s (⟨0, Nat.one_pos⟩ : Fin 1)) (fun a => ?_)).trans ?_
    · match a with
      | ⟨0, _⟩ => show p.val = if (8 : Nat) = 1 then 0 else p.val; rw [if_neg (by decide)]
      | ⟨1, _⟩ => show s.val = if (128 : Nat) = 1 then 0 else s.val; rw [if_neg (by decide)]
      | ⟨2, _⟩ => show 0 = if (1 : Nat) = 1 then 0 else k.val; rw [if_pos rfl]
    · refine shapeCast_apply c shapeCasts_S8x128_S8x128x1 (ix3 p s (⟨0, Nat.one_pos⟩ : Fin 1)) (ix2 p s) ?_
      rw [Shape.rowMajor_val_two, Shape.rowMajor_val_three]
      show p.val * 128 + s.val = (p.val * 128 + s.val) * 1 + 0
      omega
  have hi : iota .tc S8x128x128 32 [2] iota_S8x128x128_d2_w32 (ix3 p s k) = BitVec.ofNat 32 k.val :=
    iota_single_apply .tc S8x128x128 32 2 iota_S8x128x128_d2_w32 (ix3 p s k)
  show FloatOps.sitofp (F := Ideal) .f32 ((IntOp.cmpi .eq
      (broadcastTo S8x128x128 (shapeCast S8x128x1 c shapeCasts_S8x128_S8x128x1) broadcasts_S8x128x1_S8x128x128 (ix3 p s k))
      (iota .tc S8x128x128 32 [2] iota_S8x128x128_d2_w32 (ix3 p s k))).setWidth 32) = _
  rw [hb, hi]
  exact onehot_entry _ _

/-- The left operand at row `128 p + s`, in a position column `k < 128`. -/
private theorem lhsV_left (x0 x1 : IVec S8x128 32) (p : Fin 8) (s : Fin 128) (k : Fin 128) :
    lhsV x0 x1 (ix2 (⟨128 * p.val + s.val, by have := p.isLt; have := s.isLt; omega⟩ : Fin 1024)
        (⟨k.val, by have := k.isLt; omega⟩ : Fin 256))
      = onehotV (clipV 127#32 x1) (ix3 p s k) := by
  refine (shapeCast_apply _ shapeCasts_S8x128x256_S1024x256 _
    (ix3 p s (⟨k.val, by have := k.isLt; omega⟩ : Fin 256)) ?_).trans ?_
  · rw [Shape.rowMajor_val_three, Shape.rowMajor_val_two]
    show (p.val * 128 + s.val) * 256 + k.val = (128 * p.val + s.val) * 256 + k.val
    omega
  · exact concatenate_pair_apply_left (2 : Fin S8x128x256.rank) _ _ concatenates_S8x128x128_S8x128x128_S8x128x256_d2
      (ix3 p s (⟨k.val, by have := k.isLt; omega⟩ : Fin 256)) rfl (ix3 p s k) (fun b => match b with
        | ⟨0, _⟩ => rfl
        | ⟨1, _⟩ => rfl
        | ⟨2, _⟩ => rfl)

/-- The left operand at row `128 p + s`, in a type column `128 + k`. -/
private theorem lhsV_right (x0 x1 : IVec S8x128 32) (p : Fin 8) (s : Fin 128) (k : Fin 128) :
    lhsV x0 x1 (ix2 (⟨128 * p.val + s.val, by have := p.isLt; have := s.isLt; omega⟩ : Fin 1024)
        (⟨128 + k.val, by have := k.isLt; omega⟩ : Fin 256))
      = onehotV (clipV 4#32 x0) (ix3 p s k) := by
  refine (shapeCast_apply _ shapeCasts_S8x128x256_S1024x256 _
    (ix3 p s (⟨128 + k.val, by have := k.isLt; omega⟩ : Fin 256)) ?_).trans ?_
  · rw [Shape.rowMajor_val_three, Shape.rowMajor_val_two]
    show (p.val * 128 + s.val) * 256 + (128 + k.val) = (128 * p.val + s.val) * 256 + (128 + k.val)
    omega
  · exact concatenate_pair_apply_right (2 : Fin S8x128x256.rank) _ _ concatenates_S8x128x128_S8x128x128_S8x128x256_d2
      (ix3 p s (⟨128 + k.val, by have := k.isLt; omega⟩ : Fin 256)) rfl rfl (ix3 p s k)
      (fun b hb => match b, hb with
        | ⟨0, _⟩, _ => rfl
        | ⟨1, _⟩, _ => rfl
        | ⟨2, _⟩, hb => absurd rfl hb)
      (by show k.val + 128 = 128 + k.val; omega)

/-! ## The product read as a sum over the 256 columns -/

private theorem lhs_axis0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
private theorem lhs_axis1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
private theorem rhs_axis0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
private theorem rhs_axis1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- The product into the zero accumulator at `(r, j)`: the sum over the 256 columns of row `r` times column `j`. -/
private theorem mm_apply (A : FVec Ideal S1024x256 .bf16) (B : FVec Ideal S256x1024 .bf16) (r j : Fin 1024) :
    matmul dot_S1024x256_S256x1024_S1024x1024_1_0_0_1_n_n none A B (constant (F := Ideal) S1024x1024 .f32 0x00000000#32) (ix2 r j)
      = ∑ k : Fin 256, A (ix2 r k) * B (ix2 k j) := by
  show FloatOps.matmul dot_S1024x256_S256x1024_S1024x1024_1_0_0_1_n_n none A B (constant (F := Ideal) S1024x1024 .f32 0x00000000#32) (ix2 r j) = _
  rw [Ideal.matmul_constant_zero_apply, ← Equiv.sum_comp (ValueIdx.contrEquiv1 dot_S1024x256_S256x1024_S1024x1024_1_0_0_1_n_n 256 rfl rfl).symm]
  refine Finset.sum_congr rfl fun k _ => ?_
  have hk := ValueIdx.contrEquiv1_symm_val dot_S1024x256_S256x1024_S1024x1024_1_0_0_1_n_n 256 rfl rfl k
  have el : dot_S1024x256_S256x1024_S1024x1024_1_0_0_1_n_n.lhsIdx (ix2 r j) ((ValueIdx.contrEquiv1 dot_S1024x256_S256x1024_S1024x1024_1_0_0_1_n_n 256 rfl rfl).symm k) = ix2 r k := funext fun a => Fin.ext (by
    match a with
    | ⟨0, _⟩ => exact lhs_axis0 _ _
    | ⟨1, _⟩ => exact (lhs_axis1 _ _).trans hk)
  have er : dot_S1024x256_S256x1024_S1024x1024_1_0_0_1_n_n.rhsIdx (ix2 r j) ((ValueIdx.contrEquiv1 dot_S1024x256_S256x1024_S1024x1024_1_0_0_1_n_n 256 rfl rfl).symm k) = ix2 k j := funext fun a => Fin.ext (by
    match a with
    | ⟨0, _⟩ => exact (rhs_axis0 _ _).trans hk
    | ⟨1, _⟩ => exact rhs_axis1 _ _)
  rw [el, er]

/-! ## One row of the product: the two named rows of the table -/

/-- Row `128 p + s` of the left operand against a table: the table's position row plus its type row. -/
private theorem row_sum (x0 x1 : IVec S8x128 32) (h0 : ∀ i, 0 ≤ BitVec.toInt (x0 i)) (h1 : ∀ i, 0 ≤ BitVec.toInt (x1 i))
    (T : FVec Ideal S256x1024 .bf16) (p : Fin 8) (s : Fin 128) (j : Fin 1024) :
    ∑ k : Fin 256, lhsV x0 x1 (ix2 (⟨128 * p.val + s.val, by have := p.isLt; have := s.isLt; omega⟩ : Fin 1024) k) * T (ix2 k j)
      = T (ix2 (posRow (x1 (ix2 p s))) j) + T (ix2 (typeRow (x0 (ix2 p s))) j) := by
  rw [sum_split]
  refine congrArg₂ (· + ·) ?_ ?_
  · -- the position columns: a one in column `rowOf 128` of the position index
    have hL : ∀ k : Fin 128,
        lhsV x0 x1 (ix2 (⟨128 * p.val + s.val, by have := p.isLt; have := s.isLt; omega⟩ : Fin 1024)
            (⟨k.val, by have := k.isLt; omega⟩ : Fin 256)) * T (ix2 (⟨k.val, by have := k.isLt; omega⟩ : Fin 256) j)
          = (if rowOf 128 (by decide) (x1 (ix2 p s)) = k then (1 : EReal) else 0)
              * T (ix2 (⟨k.val, by have := k.isLt; omega⟩ : Fin 256) j) := fun k => by
      rw [lhsV_left, onehotV_apply, clipV_apply]
      refine congrArg (· * T (ix2 (⟨k.val, by have := k.isLt; omega⟩ : Fin 256) j)) (if_congr ?_ rfl rfl)
      rw [eq_ofNat_iff _ _ (by have := k.isLt; omega), clip_toNat 127 (by decide) _ (h1 _)]
      exact ⟨fun h => Fin.ext h, fun h => congrArg Fin.val h⟩
    rw [Finset.sum_congr rfl (fun k _ => hL k)]
    exact sum_onehot (rowOf 128 (by decide) (x1 (ix2 p s))) (fun k => T (ix2 (⟨k.val, by have := k.isLt; omega⟩ : Fin 256) j))
  · -- the type columns: a one in column `128 + rowOf 5` of the type index
    have hR : ∀ k : Fin 128,
        lhsV x0 x1 (ix2 (⟨128 * p.val + s.val, by have := p.isLt; have := s.isLt; omega⟩ : Fin 1024)
            (⟨128 + k.val, by have := k.isLt; omega⟩ : Fin 256)) * T (ix2 (⟨128 + k.val, by have := k.isLt; omega⟩ : Fin 256) j)
          = (if (⟨(rowOf 5 (by decide) (x0 (ix2 p s))).val, by have := (rowOf 5 (by decide) (x0 (ix2 p s))).isLt; omega⟩ : Fin 128) = k
              then (1 : EReal) else 0)
              * T (ix2 (⟨128 + k.val, by have := k.isLt; omega⟩ : Fin 256) j) := fun k => by
      rw [lhsV_right, onehotV_apply, clipV_apply]
      refine congrArg (· * T (ix2 (⟨128 + k.val, by have := k.isLt; omega⟩ : Fin 256) j)) (if_congr ?_ rfl rfl)
      rw [eq_ofNat_iff _ _ (by have := k.isLt; omega), clip_toNat 4 (by decide) _ (h0 _)]
      exact ⟨fun h => Fin.ext h, fun h => congrArg Fin.val h⟩
    rw [Finset.sum_congr rfl (fun k _ => hR k)]
    exact sum_onehot (⟨(rowOf 5 (by decide) (x0 (ix2 p s))).val, by have := (rowOf 5 (by decide) (x0 (ix2 p s))).isLt; omega⟩ : Fin 128)
      (fun k => T (ix2 (⟨128 + k.val, by have := k.isLt; omega⟩ : Fin 256) j))

theorem pay1_apply (x0 x1 : Vec Ideal S8x128 .i32) (x4 x5 : Vec Ideal S256x1024 .bf16)
    (h0 : ∀ i, 0 ≤ BitVec.toInt (x0 i)) (h1 : ∀ i, 0 ≤ BitVec.toInt (x1 i)) (p : Fin 8) (s : Fin 128) (j : Fin 1024) :
    k0_pay1 (F := Ideal) x0 x1 x4 x5 (ix3 p s j)
      = (x4 (ix2 (posRow (x1 (ix2 p s))) j) + x4 (ix2 (typeRow (x0 (ix2 p s))) j))
        + (x5 (ix2 (posRow (x1 (ix2 p s))) j) + x5 (ix2 (typeRow (x0 (ix2 p s))) j)) := by
  rw [pay1_eq]
  -- element (p, s, j) of the regrouped result is element (128 p + s, j) of the sum of the two products
  refine (shapeCast_apply _ shapeCasts_S1024x1024_S8x128x1024 (ix3 p s j)
    (ix2 (⟨128 * p.val + s.val, by have := p.isLt; have := s.isLt; omega⟩ : Fin 1024) j) ?_).trans ?_
  · rw [Shape.rowMajor_val_two, Shape.rowMajor_val_three]
    show (128 * p.val + s.val) * 1024 + j.val = (p.val * 128 + s.val) * 1024 + j.val
    omega
  · rw [addf_apply, mm_apply, mm_apply, shapeCast_self, shapeCast_self,
      row_sum x0 x1 h0 h1 x4 p s j, row_sum x0 x1 h0 h1 x5 p s j]

end Cert.KernelIdeal.Payload

end
-- ==== Proof.Payload.lean ====
/-
  WHAT ONE GRID POINT WRITES, element by element: the kernel body's one store, read at `(p, s, j)` of its block, is
  `Spec.embTab` of the blocks it loaded. The two table lookups are one product of a row of zeros and ones (a one at
  the clamped position index, a one at 128 + the clamped type index) with the stacked table.
-/
import proofs.«425483_j12970801234299_3_alg».proof.Proof.Gen.KernelIdeal.Frame
import proofs.«425483_j12970801234299_3_alg».proof.Proof.Spec
import proofs.«425483_j12970801234299_3_alg».proof.Proof.PayloadGather
import Idealize.ShloMosaic.PureOps.Ideal.Laws
import Idealize.ShloMosaic.Lib.ValueLayout
import Idealize.ShloMosaic.Lib.StableHlo.Predicate

noncomputable section

open scoped BigOperators

namespace Cert.KernelIdeal.Payload

open Cert.KernelIdeal Cert.KernelIdeal.Gen Idealize.ShloMosaic Idealize.ShloMosaic.ValueIdx

/-! ## Layout operations read at coordinates -/

section Layout
variable {α : Type}

/-- An `[a, b]` array cast to `[a, b, 1]` reads, at `(i, j, u)`, the operand at `(i, j)`. -/
private theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
private theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b, 1]` array broadcast to `[a, b, c]` (with `1 < a`, `1 < b`) reads, at `(i, j, k)`, the operand at `(i, j, 0)`. -/
private theorem broadcastTo_ab1_abc_apply {a b c : ℕ} (ha : a ≠ 1) (hb : b ≠ 1) (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ => show i.val = if a = 1 then 0 else i.val; rw [if_neg ha]
  | ⟨1, _⟩ => show j.val = if b = 1 then 0 else j.val; rw [if_neg hb]
  | ⟨2, _⟩ => rfl

/-- An `[a, 1, c]` array broadcast to `[a, b, c]` reads, at `(i, j, k)`, the operand at `(i, 0, k)`. -/
private theorem broadcastTo_a1c_abc_apply {a b c : ℕ} (ha : a ≠ 1) (hc : c ≠ 1) (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ => show i.val = if a = 1 then 0 else i.val; rw [if_neg ha]
  | ⟨1, _⟩ => rfl
  | ⟨2, _⟩ => show k.val = if c = 1 then 0 else k.val; rw [if_neg hc]

/-- A `[1, b, c]` array broadcast to `[a, b, c]` reads, at `(i, j, k)`, the operand at `(0, j, k)`. -/
private theorem broadcastTo_1bc_abc_apply {a b c : ℕ} (hb : b ≠ 1) (hc : c ≠ 1) (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ => show j.val = if b = 1 then 0 else j.val; rw [if_neg hb]
  | ⟨2, _⟩ => show k.val = if c = 1 then 0 else k.val; rw [if_neg hc]

end Layout

/-! ## The three matrix products, each read as a sum over its contracted index -/

private theorem lhsA_0 (i : S8x256.Idx) (q : dot_S8x5_S5x256_S8x256_1_0_0_1_n_n.contr.Idx) :
    (dot_S8x5_S5x256_S8x256_1_0_0_1_n_n.lhsIdx i q 0).val = (i 0).val := by
  unfold DotDims.lhsIdx
  rw [dif_neg (show ¬(0 : Fin S8x5.rank) ∈ dot_S8x5_S5x256_S8x256_1_0_0_1_n_n.lhsBatch by decide), dif_pos (show (0 : Fin S8x5.rank) ∈ dot_S8x5_S5x256_S8x256_1_0_0_1_n_n.lhsNonContracting by decide)]
  rfl
private theorem lhsA_1 (i : S8x256.Idx) (q : dot_S8x5_S5x256_S8x256_1_0_0_1_n_n.contr.Idx) :
    (dot_S8x5_S5x256_S8x256_1_0_0_1_n_n.lhsIdx i q 1).val = (q ⟨0, by decide⟩).val :=
  dot_S8x5_S5x256_S8x256_1_0_0_1_n_n.lhsIdx_val_of_single rfl i q
private theorem rhsA_0 (i : S8x256.Idx) (q : dot_S8x5_S5x256_S8x256_1_0_0_1_n_n.contr.Idx) :
    (dot_S8x5_S5x256_S8x256_1_0_0_1_n_n.rhsIdx i q 0).val = (q ⟨0, by decide⟩).val :=
  dot_S8x5_S5x256_S8x256_1_0_0_1_n_n.rhsIdx_val_of_single rfl i q
private theorem rhsA_1 (i : S8x256.Idx) (q : dot_S8x5_S5x256_S8x256_1_0_0_1_n_n.contr.Idx) :
    (dot_S8x5_S5x256_S8x256_1_0_0_1_n_n.rhsIdx i q 1).val = (i 1).val := by
  unfold DotDims.rhsIdx
  rw [dif_neg (show ¬(1 : Fin S5x256.rank) ∈ dot_S8x5_S5x256_S8x256_1_0_0_1_n_n.rhsBatch by decide), dif_pos (show (1 : Fin S5x256.rank) ∈ dot_S8x5_S5x256_S8x256_1_0_0_1_n_n.rhsNonContracting by decide)]
  rfl

/-- The [8, 5] × [5, 256] product into a zero accumulator, read at `(p, c)`: the sum over the contracted index. -/
private theorem mmA_apply (a : FVec Ideal S8x5 .bf16) (b : FVec Ideal S5x256 .bf16) (p : Fin 8) (c : Fin 256) :
    matmul dot_S8x5_S5x256_S8x256_1_0_0_1_n_n none a b (constant (F := Ideal) S8x256 .f32 0x00000000#32) (ix2 p c)
      = ∑ l : Fin 5, a (ix2 p l) * b (ix2 l c) := by
  refine (Ideal.matmul_constant_zero_apply dot_S8x5_S5x256_S8x256_1_0_0_1_n_n none a b (ix2 p c)).trans ?_
  rw [← Equiv.sum_comp (ValueIdx.contrEquiv1 dot_S8x5_S5x256_S8x256_1_0_0_1_n_n 5 rfl rfl).symm]
  refine Finset.sum_congr rfl fun l _ => ?_
  have hk := ValueIdx.contrEquiv1_symm_val dot_S8x5_S5x256_S8x256_1_0_0_1_n_n 5 rfl rfl l
  have el : dot_S8x5_S5x256_S8x256_1_0_0_1_n_n.lhsIdx (ix2 p c) ((ValueIdx.contrEquiv1 dot_S8x5_S5x256_S8x256_1_0_0_1_n_n 5 rfl rfl).symm l) = ix2 p l := funext fun ax => Fin.ext (by
    match ax with
    | ⟨0, _⟩ => exact lhsA_0 _ _
    | ⟨1, _⟩ => exact (lhsA_1 _ _).trans hk)
  have er : dot_S8x5_S5x256_S8x256_1_0_0_1_n_n.rhsIdx (ix2 p c) ((ValueIdx.contrEquiv1 dot_S8x5_S5x256_S8x256_1_0_0_1_n_n 5 rfl rfl).symm l) = ix2 l c := funext fun ax => Fin.ext (by
    match ax with
    | ⟨0, _⟩ => exact (rhsA_0 _ _).trans hk
    | ⟨1, _⟩ => exact rhsA_1 _ _)
  rw [el, er]

private theorem lhsB_0 (i : S8x1024.Idx) (q : dot_S8x256_S256x1024_S8x1024_1_0_0_1_n_n.contr.Idx) :
    (dot_S8x256_S256x1024_S8x1024_1_0_0_1_n_n.lhsIdx i q 0).val = (i 0).val := by
  unfold DotDims.lhsIdx
  rw [dif_neg (show ¬(0 : Fin S8x256.rank) ∈ dot_S8x256_S256x1024_S8x1024_1_0_0_1_n_n.lhsBatch by decide), dif_pos (show (0 : Fin S8x256.rank) ∈ dot_S8x256_S256x1024_S8x1024_1_0_0_1_n_n.lhsNonContracting by decide)]
  rfl
private theorem lhsB_1 (i : S8x1024.Idx) (q : dot_S8x256_S256x1024_S8x1024_1_0_0_1_n_n.contr.Idx) :
    (dot_S8x256_S256x1024_S8x1024_1_0_0_1_n_n.lhsIdx i q 1).val = (q ⟨0, by decide⟩).val :=
  dot_S8x256_S256x1024_S8x1024_1_0_0_1_n_n.lhsIdx_val_of_single rfl i q
private theorem rhsB_0 (i : S8x1024.Idx) (q : dot_S8x256_S256x1024_S8x1024_1_0_0_1_n_n.contr.Idx) :
    (dot_S8x256_S256x1024_S8x1024_1_0_0_1_n_n.rhsIdx i q 0).val = (q ⟨0, by decide⟩).val :=
  dot_S8x256_S256x1024_S8x1024_1_0_0_1_n_n.rhsIdx_val_of_single rfl i q
private theorem rhsB_1 (i : S8x1024.Idx) (q : dot_S8x256_S256x1024_S8x1024_1_0_0_1_n_n.contr.Idx) :
    (dot_S8x256_S256x1024_S8x1024_1_0_0_1_n_n.rhsIdx i q 1).val = (i 1).val := by
  unfold DotDims.rhsIdx
  rw [dif_neg (show ¬(1 : Fin S256x1024.rank) ∈ dot_S8x256_S256x1024_S8x1024_1_0_0_1_n_n.rhsBatch by decide), dif_pos (show (1 : Fin S256x1024.rank) ∈ dot_S8x256_S256x1024_S8x1024_1_0_0_1_n_n.rhsNonContracting by decide)]
  rfl

/-- The [8, 256] × [256, 1024] product into a zero accumulator, read at `(p, c)`: the sum over the contracted index. -/
private theorem mmB_apply (a : FVec Ideal S8x256 .bf16) (b : FVec Ideal S256x1024 .bf16) (p : Fin 8) (c : Fin 1024) :
    matmul dot_S8x256_S256x1024_S8x1024_1_0_0_1_n_n none a b (constant (F := Ideal) S8x1024 .f32 0x00000000#32) (ix2 p c)
      = ∑ l : Fin 256, a (ix2 p l) * b (ix2 l c) := by
  refine (Ideal.matmul_constant_zero_apply dot_S8x256_S256x1024_S8x1024_1_0_0_1_n_n none a b (ix2 p c)).trans ?_
  rw [← Equiv.sum_comp (ValueIdx.contrEquiv1 dot_S8x256_S256x1024_S8x1024_1_0_0_1_n_n 256 rfl rfl).symm]
  refine Finset.sum_congr rfl fun l _ => ?_
  have hk := ValueIdx.contrEquiv1_symm_val dot_S8x256_S256x1024_S8x1024_1_0_0_1_n_n 256 rfl rfl l
  have el : dot_S8x256_S256x1024_S8x1024_1_0_0_1_n_n.lhsIdx (ix2 p c) ((ValueIdx.contrEquiv1 dot_S8x256_S256x1024_S8x1024_1_0_0_1_n_n 256 rfl rfl).symm l) = ix2 p l := funext fun ax => Fin.ext (by
    match ax with
    | ⟨0, _⟩ => exact lhsB_0 _ _
    | ⟨1, _⟩ => exact (lhsB_1 _ _).trans hk)
  have er : dot_S8x256_S256x1024_S8x1024_1_0_0_1_n_n.rhsIdx (ix2 p c) ((ValueIdx.contrEquiv1 dot_S8x256_S256x1024_S8x1024_1_0_0_1_n_n 256 rfl rfl).symm l) = ix2 l c := funext fun ax => Fin.ext (by
    match ax with
    | ⟨0, _⟩ => exact (rhsB_0 _ _).trans hk
    | ⟨1, _⟩ => exact rhsB_1 _ _)
  rw [el, er]

private theorem lhsC_0 (i : S8x1024.Idx) (q : dot_S8x768_S768x1024_S8x1024_1_0_0_1_n_n.contr.Idx) :
    (dot_S8x768_S768x1024_S8x1024_1_0_0_1_n_n.lhsIdx i q 0).val = (i 0).val := by
  unfold DotDims.lhsIdx
  rw [dif_neg (show ¬(0 : Fin S8x768.rank) ∈ dot_S8x768_S768x1024_S8x1024_1_0_0_1_n_n.lhsBatch by decide), dif_pos (show (0 : Fin S8x768.rank) ∈ dot_S8x768_S768x1024_S8x1024_1_0_0_1_n_n.lhsNonContracting by decide)]
  rfl
private theorem lhsC_1 (i : S8x1024.Idx) (q : dot_S8x768_S768x1024_S8x1024_1_0_0_1_n_n.contr.Idx) :
    (dot_S8x768_S768x1024_S8x1024_1_0_0_1_n_n.lhsIdx i q 1).val = (q ⟨0, by decide⟩).val :=
  dot_S8x768_S768x1024_S8x1024_1_0_0_1_n_n.lhsIdx_val_of_single rfl i q
private theorem rhsC_0 (i : S8x1024.Idx) (q : dot_S8x768_S768x1024_S8x1024_1_0_0_1_n_n.contr.Idx) :
    (dot_S8x768_S768x1024_S8x1024_1_0_0_1_n_n.rhsIdx i q 0).val = (q ⟨0, by decide⟩).val :=
  dot_S8x768_S768x1024_S8x1024_1_0_0_1_n_n.rhsIdx_val_of_single rfl i q
private theorem rhsC_1 (i : S8x1024.Idx) (q : dot_S8x768_S768x1024_S8x1024_1_0_0_1_n_n.contr.Idx) :
    (dot_S8x768_S768x1024_S8x1024_1_0_0_1_n_n.rhsIdx i q 1).val = (i 1).val := by
  unfold DotDims.rhsIdx
  rw [dif_neg (show ¬(1 : Fin S768x1024.rank) ∈ dot_S8x768_S768x1024_S8x1024_1_0_0_1_n_n.rhsBatch by decide), dif_pos (show (1 : Fin S768x1024.rank) ∈ dot_S8x768_S768x1024_S8x1024_1_0_0_1_n_n.rhsNonContracting by decide)]
  rfl

/-- The [8, 768] × [768, 1024] product into a zero accumulator, read at `(p, c)`: the sum over the contracted index. -/
private theorem mmC_apply (a : FVec Ideal S8x768 .bf16) (b : FVec Ideal S768x1024 .bf16) (p : Fin 8) (c : Fin 1024) :
    matmul dot_S8x768_S768x1024_S8x1024_1_0_0_1_n_n none a b (constant (F := Ideal) S8x1024 .f32 0x00000000#32) (ix2 p c)
      = ∑ l : Fin 768, a (ix2 p l) * b (ix2 l c) := by
  refine (Ideal.matmul_constant_zero_apply dot_S8x768_S768x1024_S8x1024_1_0_0_1_n_n none a b (ix2 p c)).trans ?_
  rw [← Equiv.sum_comp (ValueIdx.contrEquiv1 dot_S8x768_S768x1024_S8x1024_1_0_0_1_n_n 768 rfl rfl).symm]
  refine Finset.sum_congr rfl fun l _ => ?_
  have hk := ValueIdx.contrEquiv1_symm_val dot_S8x768_S768x1024_S8x1024_1_0_0_1_n_n 768 rfl rfl l
  have el : dot_S8x768_S768x1024_S8x1024_1_0_0_1_n_n.lhsIdx (ix2 p c) ((ValueIdx.contrEquiv1 dot_S8x768_S768x1024_S8x1024_1_0_0_1_n_n 768 rfl rfl).symm l) = ix2 p l := funext fun ax => Fin.ext (by
    match ax with
    | ⟨0, _⟩ => exact lhsC_0 _ _
    | ⟨1, _⟩ => exact (lhsC_1 _ _).trans hk)
  have er : dot_S8x768_S768x1024_S8x1024_1_0_0_1_n_n.rhsIdx (ix2 p c) ((ValueIdx.contrEquiv1 dot_S8x768_S768x1024_S8x1024_1_0_0_1_n_n 768 rfl rfl).symm l) = ix2 l c := funext fun ax => Fin.ext (by
    match ax with
    | ⟨0, _⟩ => exact (rhsC_0 _ _).trans hk
    | ⟨1, _⟩ => exact rhsC_1 _ _)
  rw [el, er]

/-! ## The pieces of the stored value -/

/-- The float of the widened bit "the word is one" is `isOne`. -/
private theorem isOne_word (t : BitVec 32) :
    ((((IntOp.cmpi .eq t 1#32).setWidth 32).toInt : ℝ) : EReal) = Cert.Spec.isOne t := by
  unfold Cert.Spec.isOne
  by_cases h : t = 1#32
  · have hb : IntOp.cmpi .eq t 1#32 = 1#1 := StableHlo.Predicate.cmpi_eq_iff.mpr h
    have h1 : ((1#1 : BitVec 1).setWidth 32).toInt = 1 := by decide
    rw [if_pos h, hb, h1]; simp
  · have hb : IntOp.cmpi .eq t 1#32 = 0#1 := eq_zero_of_ne_one (fun hc => h (StableHlo.Predicate.cmpi_eq_iff.mp hc))
    have h0 : ((0#1 : BitVec 1).setWidth 32).toInt = 0 := by decide
    rw [if_neg h, hb, h0]; simp

/-- The mask "type is one", widened, converted and spread along the feature axis, read at `(p, s, j)`. -/
private theorem mask_apply (v0 : IVec S8x128 32) (hw : 1 < 32) (hc : S8x128.ShapeCasts S8x128x1) (hb : S8x128x1.Broadcasts S8x128x1024)
    (p : Fin 8) (s : Fin 128) (j : Fin 1024) :
    broadcastTo S8x128x1024 (shapeCast S8x128x1 (sitofp (F := Ideal) .f32 (extui 32 (cmpi .eq v0 (broadcast S8x128 1#32)) hw)) hc) hb (ix3 p s j)
      = Cert.Spec.isOne (v0 (ix2 p s)) := by
  refine (broadcastTo_ab1_abc_apply (by decide) (by decide) _ hb p s j).trans ?_
  refine (shapeCast_ab_ab1_apply _ hc p s 0).trans ?_
  exact isOne_word (v0 (ix2 p s))

/-- The hidden layer `max (style · w1 + b1) 0`, read at `(p, k)`. -/
private theorem hidden_apply (a : FVec Ideal S8x5 .bf16) (w1 : FVec Ideal S5x256 .bf16) (b1 : FVec Ideal S1x256 .f32)
    (hb : S1x256.Broadcasts S8x256) (p : Fin 8) (k : Fin 256) :
    maximumf (addf (matmul dot_S8x5_S5x256_S8x256_1_0_0_1_n_n none a w1 (constant (F := Ideal) S8x256 .f32 0x00000000#32)) (broadcastTo S8x256 b1 hb))
        (broadcast S8x256 (Scalar.ofBits (F := Ideal) .f32 0x00000000#32)) (ix2 p k)
      = Cert.Spec.hidden (fun p l => a (ix2 p l)) (fun l k => w1 (ix2 l k)) (fun k => b1 (ix2 (0 : Fin 1) k)) p k := by
  show max (matmul dot_S8x5_S5x256_S8x256_1_0_0_1_n_n none a w1 (constant (F := Ideal) S8x256 .f32 0x00000000#32) (ix2 p k) + broadcastTo S8x256 b1 hb (ix2 p k))
      (Ideal.ofBits .f32 0x00000000#32) = _
  rw [mmA_apply, broadcastTo_1b_ab_apply, Ideal.ofBits_zero_f32]
  rfl

private theorem add4_apply {s : Shape} (A B C D : FVec Ideal s .f32) (i : s.Idx) :
    addf (addf A B) (addf C D) i = (A i + B i) + (C i + D i) := rfl

/-- The per-row vector `styleEmbed + pageEmbed`, read at `(p, j)`. -/
private theorem row_apply (a : FVec Ideal S8x5 .bf16) (w1 : FVec Ideal S5x256 .bf16) (b1 : FVec Ideal S1x256 .f32)
    (w2 : FVec Ideal S256x1024 .bf16) (b2 : FVec Ideal S1x1024 .f32) (pg : FVec Ideal S8x768 .f32) (tw : FVec Ideal S768x1024 .bf16)
    (tb : FVec Ideal S1x1024 .f32) (hl : FTy.bits .bf16 < FTy.bits .f32) (hb1 : S1x256.Broadcasts S8x256) (hb2 : S1x1024.Broadcasts S8x1024)
    (p : Fin 8) (j : Fin 1024) :
    addf
        (addf (matmul dot_S8x256_S256x1024_S8x1024_1_0_0_1_n_n none
            (truncf .bf16 (maximumf (addf (matmul dot_S8x5_S5x256_S8x256_1_0_0_1_n_n none a w1 (constant (F := Ideal) S8x256 .f32 0x00000000#32)) (broadcastTo S8x256 b1 hb1))
              (broadcast S8x256 (Scalar.ofBits (F := Ideal) .f32 0x00000000#32))) hl)
            w2 (constant (F := Ideal) S8x1024 .f32 0x00000000#32))
          (broadcastTo S8x1024 b2 hb2))
        (addf (matmul dot_S8x768_S768x1024_S8x1024_1_0_0_1_n_n none (truncf .bf16 pg hl) tw (constant (F := Ideal) S8x1024 .f32 0x00000000#32))
          (broadcastTo S8x1024 tb hb2)) (ix2 p j)
      = Cert.Spec.stylePage (fun p l => a (ix2 p l)) (fun p l => pg (ix2 p l)) (fun l k => w1 (ix2 l k)) (fun k => b1 (ix2 (0 : Fin 1) k))
          (fun k j => w2 (ix2 k j)) (fun j => b2 (ix2 (0 : Fin 1) j)) (fun l j => tw (ix2 l j)) (fun j => tb (ix2 (0 : Fin 1) j)) p j := by
  refine (add4_apply _ _ _ _ _).trans ?_
  rw [mmB_apply, mmC_apply, broadcastTo_1b_ab_apply, broadcastTo_1b_ab_apply]
  unfold Cert.Spec.stylePage Cert.Spec.styleEmbed Cert.Spec.pageEmbed
  refine congrArg₂ (· + ·) (congrArg₂ (· + ·) (Finset.sum_congr rfl fun k _ => congrArg₂ (· * ·) ?_ rfl) rfl) rfl
  exact hidden_apply a w1 b1 hb1 p k

/-- The format change of the style block is the identity on extended reals. -/
private theorem pay2_eq (v : Vec Ideal S8x5 .f32) : k0_pay2 (F := Ideal) v = v := rfl

/-- A cast of the first weight block to its own shape is the identity. -/
private theorem pay3_eq (v : Vec Ideal S5x256 .bf16) : k0_pay3 (F := Ideal) v = v := by
  unfold k0_pay3
  exact shapeCast_self v _

/-- The stored value read at `(p, s, j)`, over the values it is computed from: the gathered rows' entry, plus the
    mask times the per-row vector, plus the final position table's entry. -/
private theorem pay4_apply (v0 : Vec Ideal S8x128 .i32) (v3 : Vec Ideal S8x768 .f32) (v35 : FVec Ideal S8x128x1024 .f32)
    (v36 : FVec Ideal S8x5 .bf16) (v38 : FVec Ideal S5x256 .bf16) (v40 : Vec Ideal S1x256 .f32) (v47 : Vec Ideal S256x1024 .bf16)
    (v50 : Vec Ideal S1x1024 .f32) (v55 : Vec Ideal S768x1024 .bf16) (v58 : Vec Ideal S1x1024 .f32) (v73 : Vec Ideal S128x1024 .f32)
    (p : Fin 8) (s : Fin 128) (j : Fin 1024) :
    k0_pay4 (F := Ideal) v0 v3 v35 v36 v38 v40 v47 v50 v55 v58 v73 (ix3 p s j)
      = (v35 (ix3 p s j) + Cert.Spec.isOne (v0 (ix2 p s))
            * Cert.Spec.stylePage (fun p l => v36 (ix2 p l)) (fun p l => v3 (ix2 p l)) (fun l k => v38 (ix2 l k))
                (fun k => v40 (ix2 (0 : Fin 1) k)) (fun k j => v47 (ix2 k j)) (fun j => v50 (ix2 (0 : Fin 1) j))
                (fun l j => v55 (ix2 l j)) (fun j => v58 (ix2 (0 : Fin 1) j)) p j)
          + v73 (ix2 s j) := by
  unfold k0_pay4
  rw [shapeCast_self v40, shapeCast_self v47, shapeCast_self v50, shapeCast_self v55, shapeCast_self v58]
  refine congrArg₂ (· + ·) (congrArg₂ (· + ·) rfl (congrArg₂ (· * ·) ?_ ?_)) ?_
  · exact mask_apply v0 _ _ _ p s j
  · refine (broadcastTo_a1c_abc_apply (by decide) (by decide) _ _ p s j).trans ?_
    refine (shapeCast_ab_a1b_apply _ _ p 0 j).trans ?_
    exact row_apply v36 v38 v40 v47 v50 v3 v55 v58 _ _ _ p j
  · refine (broadcastTo_1bc_abc_apply (by decide) (by decide) _ _ p s j).trans ?_
    exact shapeCast_ab_1ab_apply v73 _ 0 s j

/-! ## What the body stores -/

theorem out_apply (x0 x1 : Vec Ideal S8x128 .i32) (x2 : Vec Ideal S8x5 .f32) (x3 : Vec Ideal S8x768 .f32)
    (x4 x5 : Vec Ideal S256x1024 .bf16) (x6 : Vec Ideal S5x256 .bf16) (x7 : Vec Ideal S1x256 .f32)
    (x8 : Vec Ideal S256x1024 .bf16) (x9 : Vec Ideal S1x1024 .f32) (x10 : Vec Ideal S768x1024 .bf16)
    (x11 : Vec Ideal S1x1024 .f32) (x12 : Vec Ideal S128x1024 .f32)
    (h0 : ∀ i, 0 ≤ BitVec.toInt (x0 i)) (h1 : ∀ i, 0 ≤ BitVec.toInt (x1 i)) (p : Fin 8) (s : Fin 128) (j : Fin 1024) :
    out0_13 (F := Ideal) x0 x1 x2 x3 x4 x5 x6 x7 x8 x9 x10 x11 x12 (ix3 p s j)
      = Cert.Spec.embTab (fun p s => x0 (ix2 p s)) (fun p s => x1 (ix2 p s)) (fun p l => x2 (ix2 p l)) (fun p l => x3 (ix2 p l))
          (fun l k => x6 (ix2 l k)) (fun k => x7 (ix2 (0 : Fin 1) k)) (fun k j => x8 (ix2 k j)) (fun j => x9 (ix2 (0 : Fin 1) j))
          (fun l j => x10 (ix2 l j)) (fun j => x11 (ix2 (0 : Fin 1) j)) (fun s j => x12 (ix2 s j))
          (fun k j => x4 (ix2 k j)) (fun k j => x5 (ix2 k j)) p s j := by
  have hz2 : (![0, 0] : Fin 2 → Nat) = fun _ => 0 := funext fun a => by fin_cases a <;> rfl
  have hz3 : (![0, 0, 0] : Fin 3 → Nat) = fun _ => 0 := funext fun a => by fin_cases a <;> rfl
  unfold out0_13
  rw [View.canon_unit_zero hz3]
  simp only [View.ld_unit_zero (S := S8x128) hz2, View.ld_unit_zero (S := S8x5) hz2, View.ld_unit_zero (S := S8x768) hz2,
    View.ld_unit_zero (S := S256x1024) hz2, View.ld_unit_zero (S := S5x256) hz2, View.ld_unit_zero (S := S1x256) hz2,
    View.ld_unit_zero (S := S1x1024) hz2, View.ld_unit_zero (S := S768x1024) hz2, View.ld_unit_zero (S := S128x1024) hz2]
  rw [pay4_apply, pay1_apply x0 x1 x4 x5 h0 h1 p s j, pay2_eq, pay3_eq]
  rfl

end Cert.KernelIdeal.Payload

end
-- ==== Proof.HostPrefix.lean ====
/-
  WHAT THE KERNEL'S LAUNCH FINDS IN THE ARRAYS THE HOST PREPARED: the stacked table (position rows, type rows, zeros),
  the remainder table (the stacked table minus itself), the three weight matrices unchanged (a change of float format
  is the identity over the extended reals) and the three bias vectors as one-row matrices.
-/
import proofs.«425483_j12970801234299_3_alg».proof.Proof.Gen.KernelIdeal.Frame
import proofs.«425483_j12970801234299_3_alg».proof.Proof.Spec
import Idealize.ShloMosaic.Lib.StableHlo.Run
import Idealize.ShloMosaic.Lib.ValueLayout
import Idealize.ShloMosaic.Lib.KernelVsHost

noncomputable section

namespace Cert.KernelIdeal.HostPrefix

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The position table and the type table as launched, as functions of row and column. -/
abbrev pemb (c : Dev nD) : Fin 128 → Fin 1024 → EReal := fun r j => (m ((c : Thread nD τ).loc main_arg5) : S128x1024.Idx → EReal) (ix2 r j)
abbrev temb (c : Dev nD) : Fin 5 → Fin 1024 → EReal := fun r j => (m ((c : Thread nD τ).loc main_arg4) : S5x1024.Idx → EReal) (ix2 r j)

/-! ## The stacked table, for any two tables and any padding value that is zero -/

/-- The type table padded below with `z` to 128 rows and put under the position table: 256 rows. -/
private abbrev stackOf (xP : S128x1024.Idx → EReal) (xT : S5x1024.Idx → EReal) (z : S_.Idx → EReal) : S256x1024.Idx → EReal :=
  concatenate S256x1024 0
    [⟨S128x1024, xP⟩, ⟨S128x1024, pad S128x1024 ![0, 0] ![123, 0] ![0, 0] xT z
      (by decide : S5x1024.Pads (![0, 0] : Fin 2 → Nat) ![123, 0] ![0, 0] S128x1024) (by decide : 0 < S_.numel)⟩]
    (by decide : Shape.Concatenates [S128x1024, S128x1024] S256x1024 0)

/-- Read at row `k`, column `j`: rows below 128 are the position table's, rows 128 to 132 the type table's (the padded
    operand's rows 0 to 4, which the padding leaves in place: nothing is put before or between them), and every later
    row is the padding value, zero. -/
private theorem stackOf_apply (xP : S128x1024.Idx → EReal) (xT : S5x1024.Idx → EReal) (z : S_.Idx → EReal)
    (hz : ∀ i, z i = 0) (k : Fin 256) (j : Fin 1024) :
    stackOf xP xT z (ix2 k j) = Cert.Spec.table (fun r j => xP (ix2 r j)) (fun r j => xT (ix2 r j)) k j := by
  unfold Cert.Spec.table
  by_cases h : k.val < 128
  · rw [dif_pos h]
    exact concatenate_pair_apply_left (t := S256x1024) (s₁ := S128x1024) (s₂ := S128x1024) (0 : Fin 2) xP _ _ (ix2 k j) rfl (ix2 (⟨k.val, h⟩ : Fin 128) j) (fun b =>
      match b with
      | ⟨0, _⟩ => rfl
      | ⟨1, _⟩ => rfl)
  · rw [dif_neg h]
    have hk : k.val - 128 < 128 := by have := k.isLt; omega
    refine (concatenate_pair_apply_right (t := S256x1024) (s₁ := S128x1024) (s₂ := S128x1024) (0 : Fin 2) xP _ _ (ix2 k j) rfl rfl (ix2 (⟨k.val - 128, hk⟩ : Fin 128) j)
      (fun b hb => match b, hb with
        | ⟨0, _⟩, hb => absurd rfl hb
        | ⟨1, _⟩, _ => rfl)
      (by show (k.val - 128) + 128 = k.val; omega)).trans ?_
    by_cases h5 : k.val - 128 < 5
    · rw [dif_pos h5]
      exact pad_apply_of_inside _ _ _ xT z _ _ _ (ix2 (⟨k.val - 128, h5⟩ : Fin 5) j) (fun a =>
        match a with
        | ⟨0, _⟩ => (by show k.val - 128 = 0 + (k.val - 128) * (0 + 1); omega)
        | ⟨1, _⟩ => (by show j.val = 0 + j.val * (0 + 1); omega))
    · rw [dif_neg h5]
      refine (pad_apply_of_not_inside _ _ _ xT z _ _ _ (0 : Fin 2) ?_).trans (hz _)
      rintro ⟨_, _, h3⟩
      have h3' : (k.val - 128 - 0) / (0 + 1) < 5 := h3
      omega

/-! ## What the host operations before the launch leave in each array -/

/-- The padding value the program converts from the integer zero. -/
private abbrev zpad : S_.Idx → EReal := sitofp (F := Ideal) .f32 (constantI S_ 32 0#32)

private theorem zpad_zero (i : S_.Idx) : zpad i = 0 := by
  show ((((0#32 : BitVec 32).toInt : ℤ) : ℝ) : EReal) = 0
  simp

/-- The stacked table of the launch's two tables. -/
private abbrev stack (c : Dev nD) : S256x1024.Idx → EReal :=
  stackOf (m ((c : Thread nD τ).loc main_arg5)) (m ((c : Thread nD τ).loc main_arg4)) zpad

private theorem e_hi (c : Dev nD) : (V m c main_v2 : S256x1024.Idx → EReal) = stack m c := by
  dsimp only [Gen.V, Gen.V0]
  simp only [Gen.hostOps0, Gen.hostOps0_1, Gen.hostOps0_2, List.flatten_cons, List.flatten_nil, List.append_nil,
    List.cons_append, List.nil_append]
  after_results
  rfl

private theorem e_lo (c : Dev nD) :
    (V m c main_v5 : S256x1024.Idx → EReal) = fun i => stack m c i - stack m c i := by
  dsimp only [Gen.V, Gen.V0]
  simp only [Gen.hostOps0, Gen.hostOps0_1, Gen.hostOps0_2, List.flatten_cons, List.flatten_nil, List.append_nil,
    List.cons_append, List.nil_append]
  after_results
  rfl

theorem V_hi (c : Dev nD) (k : Fin 256) (j : Fin 1024) :
    (V m c main_v2 : S256x1024.Idx → EReal) (ix2 k j) = Cert.Spec.table (pemb m c) (temb m c) k j := by
  rw [e_hi]
  exact stackOf_apply _ _ _ zpad_zero k j

theorem V_lo (c : Dev nD) (k : Fin 256) (j : Fin 1024) :
    (V m c main_v5 : S256x1024.Idx → EReal) (ix2 k j)
      = Cert.Spec.table (pemb m c) (temb m c) k j - Cert.Spec.table (pemb m c) (temb m c) k j := by
  rw [e_lo]
  show stack m c (ix2 k j) - stack m c (ix2 k j) = _
  rw [show stack m c (ix2 k j) = Cert.Spec.table (pemb m c) (temb m c) k j from stackOf_apply _ _ _ zpad_zero k j]

theorem V_w1 (c : Dev nD) : (V m c main_v6 : S5x256.Idx → EReal) = m ((c : Thread nD τ).loc main_arg6) := by
  dsimp only [Gen.V, Gen.V0]
  simp only [Gen.hostOps0, Gen.hostOps0_1, Gen.hostOps0_2, List.flatten_cons, List.flatten_nil, List.append_nil,
    List.cons_append, List.nil_append]
  after_results
  rfl

theorem V_w2 (c : Dev nD) : (V m c main_v7 : S256x1024.Idx → EReal) = m ((c : Thread nD τ).loc main_arg8) := by
  dsimp only [Gen.V, Gen.V0]
  simp only [Gen.hostOps0, Gen.hostOps0_1, Gen.hostOps0_2, List.flatten_cons, List.flatten_nil, List.append_nil,
    List.cons_append, List.nil_append]
  after_results
  rfl

theorem V_tw (c : Dev nD) : (V m c main_v8 : S768x1024.Idx → EReal) = m ((c : Thread nD τ).loc main_arg10) := by
  dsimp only [Gen.V, Gen.V0]
  simp only [Gen.hostOps0, Gen.hostOps0_1, Gen.hostOps0_2, List.flatten_cons, List.flatten_nil, List.append_nil,
    List.cons_append, List.nil_append]
  after_results
  rfl

/-- The three bias vectors as the reshapes leave them: each vector cast to a one-row matrix. -/
private theorem e_b1 (c : Dev nD) : (V m c main_v9 : S1x256.Idx → EReal)
    = shapeCast S1x256 (m ((c : Thread nD τ).loc main_arg7) : S256.Idx → EReal) (by decide : S256.ShapeCasts S1x256) := by
  dsimp only [Gen.V, Gen.V0]
  simp only [Gen.hostOps0, Gen.hostOps0_1, Gen.hostOps0_2, List.flatten_cons, List.flatten_nil, List.append_nil,
    List.cons_append, List.nil_append]
  after_results
  rfl

private theorem e_b2 (c : Dev nD) : (V m c main_v10 : S1x1024.Idx → EReal)
    = shapeCast S1x1024 (m ((c : Thread nD τ).loc main_arg9) : S1024.Idx → EReal) (by decide : S1024.ShapeCasts S1x1024) := by
  dsimp only [Gen.V, Gen.V0]
  simp only [Gen.hostOps0, Gen.hostOps0_1, Gen.hostOps0_2, List.flatten_cons, List.flatten_nil, List.append_nil,
    List.cons_append, List.nil_append]
  after_results
  rfl

private theorem e_tb (c : Dev nD) : (V m c main_v11 : S1x1024.Idx → EReal)
    = shapeCast S1x1024 (m ((c : Thread nD τ).loc main_arg11) : S1024.Idx → EReal) (by decide : S1024.ShapeCasts S1x1024) := by
  dsimp only [Gen.V, Gen.V0]
  simp only [Gen.hostOps0, Gen.hostOps0_1, Gen.hostOps0_2, List.flatten_cons, List.flatten_nil, List.append_nil,
    List.cons_append, List.nil_append]
  after_results
  rfl

theorem V_b1 (c : Dev nD) (k : Fin 256) :
    (V m c main_v9 : S1x256.Idx → EReal) (ix2 (0 : Fin 1) k) = (m ((c : Thread nD τ).loc main_arg7) : S256.Idx → EReal) (ix1 k) := by
  rw [e_b1]
  exact shapeCast_a_1a_apply _ _ (0 : Fin 1) k

theorem V_b2 (c : Dev nD) (j : Fin 1024) :
    (V m c main_v10 : S1x1024.Idx → EReal) (ix2 (0 : Fin 1) j) = (m ((c : Thread nD τ).loc main_arg9) : S1024.Idx → EReal) (ix1 j) := by
  rw [e_b2]
  exact shapeCast_a_1a_apply _ _ (0 : Fin 1) j

theorem V_tb (c : Dev nD) (j : Fin 1024) :
    (V m c main_v11 : S1x1024.Idx → EReal) (ix2 (0 : Fin 1) j) = (m ((c : Thread nD τ).loc main_arg11) : S1024.Idx → EReal) (ix1 j) := by
  rw [e_tb]
  exact shapeCast_a_1a_apply _ _ (0 : Fin 1) j

end Cert.KernelIdeal.HostPrefix

end
-- ==== Proof.PreFacts.lean ====
/-
  WHAT THE PRECONDITION SAYS OF THE INPUTS THE PROOF LEANS ON: every type index and every position index is
  non-negative (read as a signed integer), and every entry of the two lookup tables is a real number.
-/
import proofs.«425483_j12970801234299_3_alg».proof.Defs
import proofs.«425483_j12970801234299_3_alg».proof.Proof.Gen.KernelIdeal
import proofs.«425483_j12970801234299_3_alg».proof.Proof.Gen.Pre_finite_inputs
import Idealize.ShloMosaic.Lib.ReduceAll
import Idealize.ShloMosaic.Lib.StableHlo.Predicate
import Idealize.ShloMosaic.Lib.Affine
import Idealize.ShloMosaic.Lib.ValueIdx

noncomputable section

namespace Cert.KernelIdeal.PreFacts

open Cert.KernelIdeal Idealize.ShloMosaic Idealize.ShloMosaic.TcCoe Idealize.SL.Sem

variable (m : (ℓ : Loc nD τ sig) → Buf (Elt Ideal) ℓ)

/-! ## The two element tests -/

/-- The test the precondition makes of one float: its absolute value is below the pattern of `+∞`. -/
private abbrev AbsLtInf (x : EReal) : Prop := Ideal.cmp .olt (max x (-x)) (Ideal.ofBits .f32 0x7F800000#32) = 1#1

/-- An extended real whose absolute value is below the pattern of `+∞` is a real number: at `⊤` and at `⊥` the
    absolute value `max x (-x)` is `⊤`, which is not below `⊤`. -/
private theorem real_of_abs_lt_inf (x : EReal) (hx : AbsLtInf x) : ∃ r : ℝ, x = (r : EReal) := by
  unfold AbsLtInf at hx
  have htop : Ideal.ofBits .f32 0x7F800000#32 = ⊤ := by simp [Ideal.ofBits, Ideal.ieee]
  rw [htop] at hx
  unfold Ideal.cmp at hx
  induction x using EReal.rec with
  | bot => simp at hx
  | coe r => exact ⟨r, rfl⟩
  | top => simp at hx

/-- A word that compares signed greater-or-equal to the zero word is non-negative read signed. -/
private theorem nonneg_of_sge_zero (t : BitVec 32) (ht : IntOp.cmpi .sge t 0#32 = 1#1) : 0 ≤ t.toInt := by
  have := IntOp.cmpi_sge.mp ht
  simpa using this

/-! ## The precondition split into its conjuncts -/

/-- Of the thirteen conjuncts of the precondition, the four the proof leans on, each as its element test at every
    index: the precondition's one bit is the `and` of thirteen `and`-reductions, so each reduction is `1`, and an
    `and`-reduction into a single cell that is `1` had a `1` at every index. -/
private theorem pre_elements (h : Cert.Pre_KernelIdeal m) (c : Dev nD) :
    (∀ i : S256x128.Idx, IntOp.cmpi .sge ((m ((c : Thread nD τ).loc main_arg0) : IVec S256x128 32) i) 0#32 = 1#1)
    ∧ (∀ i : S256x128.Idx, IntOp.cmpi .sge ((m ((c : Thread nD τ).loc main_arg1) : IVec S256x128 32) i) 0#32 = 1#1)
    ∧ (∀ i : S5x1024.Idx, AbsLtInf ((m ((c : Thread nD τ).loc main_arg4) : S5x1024.Idx → EReal) i))
    ∧ (∀ i : S128x1024.Idx, AbsLtInf ((m ((c : Thread nD τ).loc main_arg5) : S128x1024.Idx → EReal) i)) := by
  have e := congrFun (h c) ValueIdx.ix0
  unfold Cert.Pre_finite_inputs.fn Cert.Pre_finite_inputs.fn_part1 Cert.Pre_finite_inputs.fn_part2
    Cert.Pre_finite_inputs.fn_part3 at e
  dsimp only at e
  simp only [andi, IntOp.andi_eq_one] at e
  obtain ⟨⟨⟨⟨⟨⟨⟨⟨⟨⟨⟨⟨-, -⟩, h4⟩, h5⟩, -⟩, -⟩, -⟩, -⟩, -⟩, -⟩, -⟩, h0⟩, h1⟩ := e
  haveI : Subsingleton Cert.Pre_finite_inputs.S_.Idx := ⟨fun a b => funext fun d => d.elim0⟩
  exact ⟨fun i => Host.reduce_andi_all _ _ _ _ _ h0 i, fun i => Host.reduce_andi_all _ _ _ _ _ h1 i,
    fun i => Host.reduce_andi_all _ _ _ _ _ h4 i, fun i => Host.reduce_andi_all _ _ _ _ _ h5 i⟩

theorem types_nonneg (h : Cert.Pre_KernelIdeal m) (c : Dev nD) (i : S256x128.Idx) :
    0 ≤ BitVec.toInt ((m ((c : Thread nD τ).loc main_arg0) : IVec S256x128 32) i) := by
  exact nonneg_of_sge_zero _ ((pre_elements m h c).1 i)

theorem idxs_nonneg (h : Cert.Pre_KernelIdeal m) (c : Dev nD) (i : S256x128.Idx) :
    0 ≤ BitVec.toInt ((m ((c : Thread nD τ).loc main_arg1) : IVec S256x128 32) i) := by
  exact nonneg_of_sge_zero _ ((pre_elements m h c).2.1 i)

theorem temb_real (h : Cert.Pre_KernelIdeal m) (c : Dev nD) (i : S5x1024.Idx) :
    ∃ r : ℝ, (m ((c : Thread nD τ).loc main_arg4) : S5x1024.Idx → EReal) i = (r : EReal) := by
  exact real_of_abs_lt_inf _ ((pre_elements m h c).2.2.1 i)

theorem pemb_real (h : Cert.Pre_KernelIdeal m) (c : Dev nD) (i : S128x1024.Idx) :
    ∃ r : ℝ, (m ((c : Thread nD τ).loc main_arg5) : S128x1024.Idx → EReal) i = (r : EReal) := by
  exact real_of_abs_lt_inf _ ((pre_elements m h c).2.2.2 i)

end Cert.KernelIdeal.PreFacts

end
-- ==== Proof.KernelValue.lean ====
/-
  WHAT THE KERNEL'S RUN LEAVES IN ITS TWO RESULTS.

  The embedding array: point `t` writes rows `8t … 8t + 7`, each entry the body's payload of the blocks it loaded
  (`Payload.out_apply`: `Spec.embTab`). The stacked table the host prepared holds the position table in rows 0–127 and
  the type table in rows 128–132, so its two named rows are the two lookups; the remainder table is the stacked table
  minus itself, which is zero because every table entry is a real number (the precondition). Hence each entry is
  `Spec.emb` of the arguments, and the 32 points' blocks cover the array.

  The padding mask is computed by the host after the kernel from the type indices alone.
-/
import proofs.«425483_j12970801234299_3_alg».proof.Proof.BlockReads
import proofs.«425483_j12970801234299_3_alg».proof.Proof.Payload
import proofs.«425483_j12970801234299_3_alg».proof.Proof.HostPrefix
import proofs.«425483_j12970801234299_3_alg».proof.Proof.PreFacts
import Idealize.ShloMosaic.Lib.Pipeline.Value
import Idealize.ShloMosaic.Lib.StableHlo.Run

set_option maxRecDepth 16384

noncomputable section

open scoped BigOperators

namespace Cert.KernelIdeal.KValue

open Cert.KernelIdeal Cert.KernelIdeal.Gen Cert.KernelIdeal.Blocks Cert.KernelIdeal.HostPrefix
open Idealize.ShloMosaic Idealize.ShloMosaic.TcCoe Idealize.ShloMosaic.ValueIdx Idealize.SL.Sem Cert.Lib.RowGather
open Idealize.ShloMosaic.Pipeline (Dat Cfg Window)

/-! ## The stacked table, read at its named rows -/

theorem table_pos (pe : Fin 128 → Fin 1024 → EReal) (te : Fin 5 → Fin 1024 → EReal) (r : Fin 128) (j : Fin 1024)
    (hr : r.val < 256) : Cert.Spec.table pe te ⟨r.val, hr⟩ j = pe r j := by
  unfold Cert.Spec.table
  rw [dif_pos (show (⟨r.val, hr⟩ : Fin 256).val < 128 from r.isLt)]

theorem table_type (pe : Fin 128 → Fin 1024 → EReal) (te : Fin 5 → Fin 1024 → EReal) (r : Fin 5) (j : Fin 1024)
    (hr : 128 + r.val < 256) : Cert.Spec.table pe te ⟨128 + r.val, hr⟩ j = te r j := by
  unfold Cert.Spec.table
  rw [dif_neg (show ¬ (⟨128 + r.val, hr⟩ : Fin 256).val < 128 from by simp),
    dif_pos (show 128 + r.val - 128 < 5 from by have := r.isLt; omega)]
  exact congrArg (fun q => te q j) (Fin.ext (by simp))

/-- Moving the batch row into the arguments changes nothing: the per-row vector reads its row only. -/
theorem stylePage_row {B B' : Nat} (f : Fin B' → Fin B) (style : Fin B → Fin 5 → EReal) (page : Fin B → Fin 768 → EReal)
    (w1 : Fin 5 → Fin 256 → EReal) (b1 : Fin 256 → EReal) (w2 : Fin 256 → Fin 1024 → EReal) (b2 : Fin 1024 → EReal)
    (tw : Fin 768 → Fin 1024 → EReal) (tb : Fin 1024 → EReal) (p : Fin B') (j : Fin 1024) :
    Cert.Spec.stylePage (fun p l => style (f p) l) (fun p l => page (f p) l) w1 b1 w2 b2 tw tb p j
      = Cert.Spec.stylePage style page w1 b1 w2 b2 tw tb (f p) j := rfl

variable (m : (ℓ : Loc nD τ sig) → Buf (Elt Ideal) ℓ) (ρ : Dev nD → PrngReg)

/-! ## The result array as one function of the arguments -/

/-- `Spec.emb` of the argument arrays as launched. -/
def embArr (c : Dev nD) : S256x128x1024.Idx → EReal := fun i =>
  Cert.Spec.emb
    (fun b s => (m ((c : Thread nD τ).loc main_arg0) : S256x128.Idx → BitVec 32) (ix2 b s))
    (fun b s => (m ((c : Thread nD τ).loc main_arg1) : S256x128.Idx → BitVec 32) (ix2 b s))
    (fun b l => (m ((c : Thread nD τ).loc main_arg2) : S256x5.Idx → EReal) (ix2 b l))
    (fun b l => (m ((c : Thread nD τ).loc main_arg3) : S256x768.Idx → EReal) (ix2 b l))
    (fun l k => (m ((c : Thread nD τ).loc main_arg6) : S5x256.Idx → EReal) (ix2 l k))
    (fun k => (m ((c : Thread nD τ).loc main_arg7) : S256.Idx → EReal) (ix1 k))
    (fun k j => (m ((c : Thread nD τ).loc main_arg8) : S256x1024.Idx → EReal) (ix2 k j))
    (fun j => (m ((c : Thread nD τ).loc main_arg9) : S1024.Idx → EReal) (ix1 j))
    (fun l j => (m ((c : Thread nD τ).loc main_arg10) : S768x1024.Idx → EReal) (ix2 l j))
    (fun j => (m ((c : Thread nD τ).loc main_arg11) : S1024.Idx → EReal) (ix1 j))
    (fun s j => (m ((c : Thread nD τ).loc main_arg12) : S128x1024.Idx → EReal) (ix2 s j))
    (temb m c) (pemb m c) (i 0) (i 1) (i 2)

/-- A real number minus itself is zero (an infinity minus itself is not). -/
theorem real_sub_self {x : EReal} (hx : ∃ r : ℝ, x = (r : EReal)) : x - x = 0 := by
  obtain ⟨r, hr⟩ := hx
  rw [hr, ← EReal.coe_sub, sub_self, EReal.coe_zero]

/-- The table entries are real numbers (the precondition), so the remainder table's entries are zero. -/
theorem pemb_sub_self (h : Cert.Pre_KernelIdeal m) (c : Dev nD) (r : Fin 128) (j : Fin 1024) :
    pemb m c r j - pemb m c r j = 0 := real_sub_self (PreFacts.pemb_real m h c _)

theorem temb_sub_self (h : Cert.Pre_KernelIdeal m) (c : Dev nD) (r : Fin 5) (j : Fin 1024) :
    temb m c r j - temb m c r j = 0 := real_sub_self (PreFacts.temb_real m h c _)

theorem blk_types_nonneg (h : Cert.Pre_KernelIdeal m) (c : Dev nD) (t : Fin cfg0.N) (i : S8x128.Idx) : 0 ≤ BitVec.toInt (iblk m c 0 t i) := by
  obtain ⟨p, s, rfl⟩ : ∃ (p : Fin 8) (s : Fin 128), i = ix2 p s := ⟨i 0, i 1, eq_ix2 i⟩
  rw [blk_types]
  exact PreFacts.types_nonneg m h c _

theorem blk_idxs_nonneg (h : Cert.Pre_KernelIdeal m) (c : Dev nD) (t : Fin cfg0.N) (i : S8x128.Idx) : 0 ≤ BitVec.toInt (iblk m c 1 t i) := by
  obtain ⟨p, s, rfl⟩ : ∃ (p : Fin 8) (s : Fin 128), i = ix2 p s := ⟨i 0, i 1, eq_ix2 i⟩
  rw [blk_idxs]
  exact PreFacts.idxs_nonneg m h c _

/-! ## What point `t` writes back -/

theorem flushed_eq (h : Cert.Pre_KernelIdeal m) (c : Dev nD) (t : Fin cfg0.N) :
    (dats m 0 c).flushed 13 t = ((cfg0.win 13).blk t).view.read (Elt Ideal) (embArr m c) := by
  show (cfg0.win 13).cut (grid0.coords t) ((dats m 0 c).after 13 t) = _
  rw [after0_13]
  funext y
  obtain ⟨p, s, j, rfl⟩ : ∃ (p : Fin 8) (s : Fin 128) (j : Fin 1024), y = ix3 p s j := ⟨y 0, y 1, y 2, eq_ix3 y⟩
  show out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 p s j)
      = embArr m c (((cfg0.win 13).blk t).view.emb (ix3 p s j))
  rw [out_emb]
  show _ = Cert.Spec.emb _ _ _ _ _ _ _ _ _ _ _ (temb m c) (pemb m c) (row t p) s j
  refine (Payload.out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    (blk_types_nonneg m h c t) (blk_idxs_nonneg m h c t) p s j).trans ?_
  simp only [blk_types m c t, blk_idxs m c t, blk_style m c t, blk_page m c t, blk_hi m c t, blk_lo m c t, blk_w1 m c t,
    blk_b1 m c t, blk_w2 m c t, blk_b2 m c t, blk_tw m c t, blk_tb m c t, blk_fpos m c t]
  simp only [V_hi m c, V_lo m c, V_w1 m c, V_w2 m c, V_tw m c, V_b1 m c, V_b2 m c, V_tb m c, V_main_arg12 m c]
  unfold Cert.Spec.embTab Cert.Spec.emb
  simp only [table_pos, table_type]
  simp only [pemb_sub_self m h c, temb_sub_self m h c, add_zero]
  rw [add_comm (pemb m c _ _) (temb m c _ _)]
  rfl

/-! ## The blocks cover the array -/

theorem mem_blk (t : Fin cfg0.N) (i : S256x128x1024.Idx) :
    i ∈ ((cfg0.win 13).blk t).view.set ↔ ∀ a : Fin 3, win0_13.index t a * S8x128x1024.size a ≤ (i a).val
      ∧ (i a).val < win0_13.index t a * S8x128x1024.size a + S8x128x1024.size a := by
  show i ∈ ((View.whole main_v12).slice (win0_13.rect t)).set ↔ _
  rw [View.set_slice_whole, Rect.mem_set_unit]
  exact Iff.rfl

theorem cover (i : S256x128x1024.Idx) :
    ∃ t : Fin cfg0.N, (cfg0.win 13).flush t = true ∧ i ∈ ((cfg0.win 13).blk t).view.set := by
  have hi0 : (i 0).val < 256 := (i 0).isLt
  have hi1 : (i 1).val < 128 := (i 1).isLt
  have hi2 : (i 2).val < 1024 := (i 2).isLt
  have hN : (i 0).val / 8 < cfg0.N := by rw [show cfg0.N = 32 from N_0]; omega
  refine ⟨⟨(i 0).val / 8, hN⟩, flush0_13 _, ?_⟩
  obtain ⟨-, -, -, -, -, -, -, -, -, -, -, -, -, -, -, -, -, -, -, -, -, -, -, -, -, -, e0, e1, e2⟩ := idx_facts ⟨(i 0).val / 8, hN⟩
  rw [mem_blk]
  intro a
  match a with
  | ⟨0, _⟩ => show win0_13.index ⟨(i 0).val / 8, hN⟩ (0 : Fin 3) * 8 ≤ (i 0).val ∧ (i 0).val < win0_13.index ⟨(i 0).val / 8, hN⟩ (0 : Fin 3) * 8 + 8; rw [e0]; show (i 0).val / 8 * 8 ≤ _ ∧ _ < (i 0).val / 8 * 8 + 8; omega
  | ⟨1, _⟩ => show win0_13.index ⟨(i 0).val / 8, hN⟩ (1 : Fin 3) * 128 ≤ (i 1).val ∧ (i 1).val < win0_13.index ⟨(i 0).val / 8, hN⟩ (1 : Fin 3) * 128 + 128; rw [e1]; omega
  | ⟨2, _⟩ => show win0_13.index ⟨(i 0).val / 8, hN⟩ (2 : Fin 3) * 1024 ≤ (i 2).val ∧ (i 2).val < win0_13.index ⟨(i 0).val / 8, hN⟩ (2 : Fin 3) * 1024 + 1024; rw [e2]; omega

/-- THE EMBEDDING ARRAY after the run. -/
theorem final (h : Cert.Pre_KernelIdeal m) (c : Dev nD) : (dats m 0 c).arrAt 13 cfg0.N = embArr m c :=
  (dats m 0 c).arrAt_eq_of_cover 13 (embArr m c) (fun t _ => flushed_eq m h c t) cover

/-! ## The padding mask, computed after the kernel -/

theorem tail_mask (c : Dev nD) :
    Pipeline.afterTail₀ cfgs (dats m) 0 (V0 m) [hostOps1] c main_v14
      = (cmpi .eq (m ((c : Thread nD τ).loc main_arg0)) (broadcastInDim S256x128 ![] bcast_S_S256x128 (constantI S_ 32 0#32)) : S256x128.Idx → BitVec 1) := by
  unfold Pipeline.afterTail₀
  show StableHlo.after hostOps1 _ (Proc.devRef .tc main_v14) = _
  after_results
  rw [Pipeline.withArrays_arr spec0 launch0.win.arr_inj c _ _ 0, (dats m 0 c).arrAt_in 0 rfl _, A_eq, V_main_arg0]

/-! ## The run, read -/

theorem run (h : Cert.Pre_KernelIdeal m) : θ_run defs (onTc (τ := τ) (main (F := Ideal))) ⟨m, fun _ => 0, ρ⟩ fun r => ∀ c : Dev nD,
      r.2.mem ((c : Thread nD τ).loc main_v12) = embArr m c
      ∧ r.2.mem ((c : Thread nD τ).loc main_v14)
          = (cmpi .eq (m ((c : Thread nD τ).loc main_arg0)) (broadcastInDim S256x128 ![] bcast_S_S256x128 (constantI S_ 32 0#32)) : S256x128.Idx → BitVec 1)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r hr c => ⟨((hr c).1 13).trans (final m h c),
      ((hr c).2 main_v14 (Pipeline.mem_restRefs_of main_v14 (by decide) (by decide))).trans (tail_mask m c),
      ((hr c).1 0).trans (((dats m 0 c).arrAt_in 0 rfl _).trans ((A_eq m c 0).trans (V_main_arg0 m c))),
      ((hr c).1 1).trans (((dats m 0 c).arrAt_in 1 rfl _).trans ((A_eq m c 1).trans (V_main_arg1 m c))),
      ((hr c).1 2).trans (((dats m 0 c).arrAt_in 2 rfl _).trans ((A_eq m c 2).trans (V_main_arg2 m c))),
      ((hr c).1 3).trans (((dats m 0 c).arrAt_in 3 rfl _).trans ((A_eq m c 3).trans (V_main_arg3 m c))),
      (((hr c).2 main_arg4 (Pipeline.mem_restRefs_of main_arg4 (by decide) (by decide))).trans (W_main_arg4 m (dats m) c)),
      (((hr c).2 main_arg5 (Pipeline.mem_restRefs_of main_arg5 (by decide) (by decide))).trans (W_main_arg5 m (dats m) c)),
      (((hr c).2 main_arg6 (Pipeline.mem_restRefs_of main_arg6 (by decide) (by decide))).trans (W_main_arg6 m (dats m) c)),
      (((hr c).2 main_arg7 (Pipeline.mem_restRefs_of main_arg7 (by decide) (by decide))).trans (W_main_arg7 m (dats m) c)),
      (((hr c).2 main_arg8 (Pipeline.mem_restRefs_of main_arg8 (by decide) (by decide))).trans (W_main_arg8 m (dats m) c)),
      (((hr c).2 main_arg9 (Pipeline.mem_restRefs_of main_arg9 (by decide) (by decide))).trans (W_main_arg9 m (dats m) c)),
      (((hr c).2 main_arg10 (Pipeline.mem_restRefs_of main_arg10 (by decide) (by decide))).trans (W_main_arg10 m (dats m) c)),
      (((hr c).2 main_arg11 (Pipeline.mem_restRefs_of main_arg11 (by decide) (by decide))).trans (W_main_arg11 m (dats m) c)),
      ((hr c).1 12).trans (((dats m 0 c).arrAt_in 12 rfl _).trans ((A_eq m c 12).trans (V_main_arg12 m c)))⟩)
    (run_main m ρ)

end Cert.KernelIdeal.KValue

end
-- ==== Proof.RefValue.lean ====
/-
  THE REFERENCE'S RESULT IS `Spec.emb`: element `(b, s, j)` of what the reference program writes is
  `((type_emb[row, j] + pos_emb[row', j]) + [type = 1] · (styleEmbed + pageEmbed)) + final_pos[s, j]`.
  A non-negative index passes the reference's wrap-around of negative indices unchanged, and the gather then
  clamps it to a table row.
-/
import proofs.«425483_j12970801234299_3_alg».proof.Proof.Gen.ReferenceIdeal.Read
import proofs.«425483_j12970801234299_3_alg».proof.Proof.Spec
import Idealize.ShloMosaic.Lib.StableHlo.Predicate

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The composed index functions at coordinates

Each layout operation reads its operand at an index computed from the result's index; composed along a chain of
broadcasts, and at a result index given by its coordinates, that index is again given by coordinates. -/

private theorem lidx15_ix (b k : Fin 256) (l : Fin 5) : lidx_main_v15 (ix2 b k) l = ix2 b l := by
  funext a; match a with | ⟨0, _⟩ => rfl | ⟨1, _⟩ => rfl
private theorem ridx15_ix (b k : Fin 256) (l : Fin 5) : ridx_main_v15 (ix2 b k) l = ix2 l k := by
  funext a; match a with | ⟨0, _⟩ => rfl | ⟨1, _⟩ => rfl
private theorem idx16_17_ix (b k : Fin 256) : idx_main_v16 (idx_main_v17 (ix2 b k)) = ix1 k := by
  funext a; match a with | ⟨0, _⟩ => rfl
private theorem lidx21_ix (b : Fin 256) (j : Fin 1024) (k : Fin 256) : lidx_main_v21 (ix2 b j) k = ix2 b k := by
  funext a; match a with | ⟨0, _⟩ => rfl | ⟨1, _⟩ => rfl
private theorem ridx21_ix (b : Fin 256) (j : Fin 1024) (k : Fin 256) : ridx_main_v21 (ix2 b j) k = ix2 k j := by
  funext a; match a with | ⟨0, _⟩ => rfl | ⟨1, _⟩ => rfl
private theorem idx22_23_ix (b : Fin 256) (j : Fin 1024) : idx_main_v22 (idx_main_v23 (ix2 b j)) = ix1 j := by
  funext a; match a with | ⟨0, _⟩ => rfl
private theorem lidx25_ix (b : Fin 256) (j : Fin 1024) (l : Fin 768) : lidx_main_v25 (ix2 b j) l = ix2 b l := by
  funext a; match a with | ⟨0, _⟩ => rfl | ⟨1, _⟩ => rfl
private theorem ridx25_ix (b : Fin 256) (j : Fin 1024) (l : Fin 768) : ridx_main_v25 (ix2 b j) l = ix2 l j := by
  funext a; match a with | ⟨0, _⟩ => rfl | ⟨1, _⟩ => rfl
private theorem idx26_27_ix (b : Fin 256) (j : Fin 1024) : idx_main_v26 (idx_main_v27 (ix2 b j)) = ix1 j := by
  funext a; match a with | ⟨0, _⟩ => rfl
private theorem idx33_36_ix (b : Fin 256) (s : Fin 128) (j : Fin 1024) :
    idx_main_v33 (idx_main_v36 (ix3 b s j)) = ix2 b j := by
  funext a; match a with | ⟨0, _⟩ => rfl | ⟨1, _⟩ => rfl
private theorem idx31_35_ix (b : Fin 256) (s : Fin 128) (j : Fin 1024) :
    idx_main_v31 (idx_main_v35 (ix3 b s j)) = ix2 b s := by
  funext a; match a with | ⟨0, _⟩ => rfl | ⟨1, _⟩ => rfl
private theorem idx39_40_ix (b : Fin 256) (s : Fin 128) (j : Fin 1024) :
    idx_main_v39 (idx_main_v40 (ix3 b s j)) = ix2 s j := by
  funext a; match a with | ⟨0, _⟩ => rfl | ⟨1, _⟩ => rfl
private theorem idx5_ix (b : Fin 256) (s : Fin 128) (z : Fin 1) : idx_main_v5 (ix3 b s z) = ix2 b s := by
  funext a; match a with | ⟨0, _⟩ => rfl | ⟨1, _⟩ => rfl
private theorem idx12_ix (b : Fin 256) (s : Fin 128) (z : Fin 1) : idx_main_v12 (ix3 b s z) = ix2 b s := by
  funext a; match a with | ⟨0, _⟩ => rfl | ⟨1, _⟩ => rfl

/-! ## The style network and the page projection -/

/-- The relu stage at `(b, k)` is the hidden layer: the 5-term product, the bias, and the maximum with zero. -/
private theorem hidden_eq (x2 : FVec Ideal S256x5 .f32) (x6 : FVec Ideal S5x256 .f32) (x7 : FVec Ideal S256 .f32)
    (b k : Fin 256) :
    val_main_v20 (F := Ideal) x2 x6 x7 (ix2 b k)
      = Cert.Spec.hidden (fun b l => x2 (ix2 b l)) (fun l k => x6 (ix2 l k)) (fun k => x7 (ix1 k)) b k := by
  rw [val_main_v20_apply, val_main_v18_apply, val_main_v15_apply, val_main_v17_apply, val_main_v16_apply,
    val_main_v19_apply, val_main_cst_apply, idx16_17_ix]
  simp only [Ideal.maximumf_def, Ideal.addf_def, Ideal.ofBits_def, Ideal.ofBits_zero_f32]
  unfold Cert.Spec.hidden
  refine congrArg (fun t => max (t + x7 (ix1 k)) (0 : EReal)) ?_
  exact Finset.sum_congr rfl fun l _ => by rw [lidx15_ix, ridx15_ix]

/-- The second layer at `(b, j)`: the 256-term product of the hidden layer with the weights, plus the bias. -/
private theorem style_eq (x2 : FVec Ideal S256x5 .f32) (x6 : FVec Ideal S5x256 .f32) (x7 : FVec Ideal S256 .f32)
    (x8 : FVec Ideal S256x1024 .f32) (x9 : FVec Ideal S1024 .f32) (b : Fin 256) (j : Fin 1024) :
    val_main_v24 (F := Ideal) x2 x6 x7 x8 x9 (ix2 b j)
      = Cert.Spec.styleEmbed (fun b l => x2 (ix2 b l)) (fun l k => x6 (ix2 l k)) (fun k => x7 (ix1 k))
          (fun k j => x8 (ix2 k j)) (fun j => x9 (ix1 j)) b j := by
  rw [val_main_v24_apply, val_main_v21_apply, val_main_v23_apply, val_main_v22_apply, idx22_23_ix]
  simp only [Ideal.addf_def]
  unfold Cert.Spec.styleEmbed
  refine congrArg (fun t => t + x9 (ix1 j)) ?_
  exact Finset.sum_congr rfl fun k _ => by rw [lidx21_ix, ridx21_ix, hidden_eq]

/-- The page projection at `(b, j)`: the 768-term product, plus the bias. -/
private theorem page_eq (x3 : FVec Ideal S256x768 .f32) (x10 : FVec Ideal S768x1024 .f32) (x11 : FVec Ideal S1024 .f32)
    (b : Fin 256) (j : Fin 1024) :
    val_main_v28 (F := Ideal) x3 x10 x11 (ix2 b j)
      = Cert.Spec.pageEmbed (fun b l => x3 (ix2 b l)) (fun l j => x10 (ix2 l j)) (fun j => x11 (ix1 j)) b j := by
  rw [val_main_v28_apply, val_main_v25_apply, val_main_v27_apply, val_main_v26_apply, idx26_27_ix]
  simp only [Ideal.addf_def]
  unfold Cert.Spec.pageEmbed
  refine congrArg (fun t => t + x11 (ix1 j)) ?_
  exact Finset.sum_congr rfl fun l _ => by rw [lidx25_ix, ridx25_ix]

/-! ## The wrap-around of negative indices, and the mask -/

/-- A word that is non-negative when read signed is not below zero, so the select keeps it. -/
private theorem wrap_nonneg (t c : BitVec 32) (ht : 0 ≤ t.toInt) :
    Scalar.select (IntOp.cmpi .slt t 0#32) (IntOp.addi t c) t = t := by
  have h : IntOp.cmpi .slt t 0#32 = 0#1 := by
    refine eq_zero_of_ne_one fun h1 => ?_
    unfold IntOp.cmpi at h1
    rw [StableHlo.Predicate.ofBool_eq_one_iff] at h1
    simp only [BitVec.slt, decide_eq_true_eq] at h1
    have : (0#32 : BitVec 32).toInt = 0 := by decide
    omega
  rw [h, select_zero]

/-- The one-bit word "equals one", read unsigned as an extended real, is `1` or `0`. -/
private theorem bit_eq (t : BitVec 32) :
    FloatOps.uitofp (F := Ideal) .f32 (IntOp.cmpi .eq t 1#32) = Cert.Spec.isOne t := by
  unfold Cert.Spec.isOne
  show (((IntOp.cmpi .eq t 1#32).toNat : ℝ) : EReal) = _
  by_cases h : t = 1#32
  · rw [if_pos h, StableHlo.Predicate.cmpi_eq_iff.mpr h]
    simp
  · rw [if_neg h, eq_zero_of_ne_one (fun h1 => h (StableHlo.Predicate.cmpi_eq_iff.mp h1))]
    simp

/-- The mask at `(b, s, j)` tests the type word at `(b, s)`. -/
private theorem mask_eq (x0 : IVec S256x128 32) (b : Fin 256) (s : Fin 128) (j : Fin 1024) :
    val_main_v35 (F := Ideal) x0 (ix3 b s j) = Cert.Spec.isOne (x0 (ix2 b s)) := by
  rw [val_main_v35_apply, val_main_v34_apply, val_main_v31_apply, idx31_35_ix, val_main_v30_apply, val_main_v29_apply,
    val_main_c_3_apply]
  exact bit_eq _

/-! ## The two row gathers -/

/-- The start index of the type lookup at `(b, s)` is the type word itself. -/
private theorem start5_eq (x0 : IVec S256x128 32) (h0 : ∀ i, 0 ≤ BitVec.toInt (x0 i)) (b : Fin 256) (s : Fin 128)
    (z : Fin 1) : val_main_v5 (F := Ideal) x0 (ix3 b s z) = x0 (ix2 b s) := by
  rw [val_main_v5_apply, idx5_ix, val_main_v4_apply, val_main_v1_apply, val_main_v3_apply, val_main_v0_apply,
    val_main_c_apply, val_main_v2_apply, val_main_c_0_apply]
  exact wrap_nonneg _ _ (h0 _)

/-- The start index of the position lookup at `(b, s)` is the position word itself. -/
private theorem start12_eq (x1 : IVec S256x128 32) (h1 : ∀ i, 0 ≤ BitVec.toInt (x1 i)) (b : Fin 256) (s : Fin 128)
    (z : Fin 1) : val_main_v12 (F := Ideal) x1 (ix3 b s z) = x1 (ix2 b s) := by
  rw [val_main_v12_apply, idx12_ix, val_main_v11_apply, val_main_v8_apply, val_main_v10_apply, val_main_v7_apply,
    val_main_c_1_apply, val_main_v9_apply, val_main_c_2_apply]
  exact wrap_nonneg _ _ (h1 _)

/-- The type lookup at `(b, s, j)`: column `j` of the type table's row named by the type word. -/
private theorem gather6_eq (x0 : IVec S256x128 32) (x4 : FVec Ideal S5x1024 .f32) (h0 : ∀ i, 0 ≤ BitVec.toInt (x0 i))
    (b : Fin 256) (s : Fin 128) (j : Fin 1024) :
    val_main_v6 (F := Ideal) x0 x4 (ix3 b s j)
      = x4 (ix2 (Cert.Lib.RowGather.rowOf 5 (by decide) (x0 (ix2 b s))) j) := by
  unfold val_main_v6
  refine (Cert.Lib.RowGather.gather_rows_apply (N := 5) (D := 1024) (R := 256) (C := 128) (by decide)
    Gen.gather_S5x1024_S256x128x1_S256x128x1024_2_0_n_n_0_2_11024_wf x4 (val_main_v5 (F := Ideal) x0) b s j).trans ?_
  rw [start5_eq x0 h0]

/-- The position lookup at `(b, s, j)`: column `j` of the position table's row named by the position word. -/
private theorem gather13_eq (x1 : IVec S256x128 32) (x5 : FVec Ideal S128x1024 .f32) (h1 : ∀ i, 0 ≤ BitVec.toInt (x1 i))
    (b : Fin 256) (s : Fin 128) (j : Fin 1024) :
    val_main_v13 (F := Ideal) x1 x5 (ix3 b s j)
      = x5 (ix2 (Cert.Lib.RowGather.rowOf 128 (by decide) (x1 (ix2 b s))) j) := by
  unfold val_main_v13
  refine (Cert.Lib.RowGather.gather_rows_apply (N := 128) (D := 1024) (R := 256) (C := 128) (by decide)
    Gen.gather_S128x1024_S256x128x1_S256x128x1024_2_0_n_n_0_2_11024_wf x5 (val_main_v12 (F := Ideal) x1) b s j).trans ?_
  rw [start12_eq x1 h1]

/-! ## The result -/

theorem ref_emb (x0 x1 : IVec S256x128 32) (x2 : FVec Ideal S256x5 .f32) (x3 : FVec Ideal S256x768 .f32)
    (x4 : FVec Ideal S5x1024 .f32) (x5 : FVec Ideal S128x1024 .f32) (x6 : FVec Ideal S5x256 .f32) (x7 : FVec Ideal S256 .f32)
    (x8 : FVec Ideal S256x1024 .f32) (x9 : FVec Ideal S1024 .f32) (x10 : FVec Ideal S768x1024 .f32) (x11 : FVec Ideal S1024 .f32)
    (x12 : FVec Ideal S128x1024 .f32)
    (h0 : ∀ i, 0 ≤ BitVec.toInt (x0 i)) (h1 : ∀ i, 0 ≤ BitVec.toInt (x1 i)) (b : Fin 256) (s : Fin 128) (j : Fin 1024) :
    val_main_v41 (F := Ideal) x0 x1 x2 x3 x4 x5 x6 x7 x8 x9 x10 x11 x12 (ix3 b s j)
      = Cert.Spec.emb (fun b s => x0 (ix2 b s)) (fun b s => x1 (ix2 b s)) (fun b l => x2 (ix2 b l)) (fun b l => x3 (ix2 b l))
          (fun l k => x6 (ix2 l k)) (fun k => x7 (ix1 k)) (fun k j => x8 (ix2 k j)) (fun j => x9 (ix1 j))
          (fun l j => x10 (ix2 l j)) (fun j => x11 (ix1 j)) (fun s j => x12 (ix2 s j))
          (fun r j => x4 (ix2 r j)) (fun r j => x5 (ix2 r j)) b s j := by
  rw [val_main_v41_apply, val_main_v38_apply, val_main_v14_apply, val_main_v37_apply, gather6_eq x0 x4 h0,
    gather13_eq x1 x5 h1, mask_eq, val_main_v36_apply, val_main_v33_apply, idx33_36_ix, val_main_v32_apply, style_eq,
    page_eq, val_main_v40_apply, val_main_v39_apply, idx39_40_ix]
  rfl

end Cert.ReferenceIdeal.RefValue

end
-- ==== Proof.lean ====
/-
  The certificate: the embedding kernel (two table lookups done as one product with a stacked table, split into a table
  and a remainder table; a two-layer style network and a linear text layer added where the type index is 1; a
  positional table added last) against the plain reference, over the extended reals.

  The three frames are the generated runs. `preserves` has nothing to state. For `algebraic`, both programs end with the
  embedding array at `Spec.emb` of the arguments (the kernel: `KValue.run`; the reference: its generated run read back
  by `RefValue.ref_emb`) and with the same padding mask, a function of the type indices alone. The precondition is used
  twice: the index inputs are non-negative, so the reference's wrap-around of negative indices and the kernel's clamp
  agree; the table entries are real numbers, so the remainder table is zero.
-/
import proofs.«425483_j12970801234299_3_alg».proof.Defs
import proofs.«425483_j12970801234299_3_alg».proof.Proof.Gen.Kernel
import proofs.«425483_j12970801234299_3_alg».proof.Proof.Gen.Kernel.Frame
import proofs.«425483_j12970801234299_3_alg».proof.Proof.Gen.KernelIdeal
import proofs.«425483_j12970801234299_3_alg».proof.Proof.Gen.KernelIdeal.Frame
import proofs.«425483_j12970801234299_3_alg».proof.Proof.Gen.ReferenceIdeal
import proofs.«425483_j12970801234299_3_alg».proof.Proof.Gen.Pre_finite_inputs
import proofs.«425483_j12970801234299_3_alg».proof.Proof.Gen.ReferenceIdeal.Run
import proofs.«425483_j12970801234299_3_alg».proof.Proof.Gen.ReferenceIdeal.Read
import proofs.«425483_j12970801234299_3_alg».proof.Proof.KernelValue
import proofs.«425483_j12970801234299_3_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its generated run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the embedding array at `Spec.emb` of the arguments and with the same padding mask. -/
theorem algebraic : Cert.algebraic_KernelIdeal_ReferenceIdeal := by
  intro m ρ m' ρ' hpre hagree
  refine ⟨fun c => Cert.KernelIdeal.KValue.embArr m c, _, Cert.KernelIdeal.KValue.run m ρ hpre, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12⟩ := hagree c
    rw [a0, a1, a2, a3, a4, a5, a6, a7, a8, a9, a10, a11, a12, Cert.ReferenceIdeal.Read.val_main_v41_eq]
    funext i
    obtain ⟨b, s, j, rfl⟩ : ∃ (b : Fin 256) (s : Fin 128) (j : Fin 1024), i = ix3 b s j := ⟨i 0, i 1, i 2, eq_ix3 i⟩
    exact Cert.ReferenceIdeal.RefValue.ref_emb _ _ _ _ _ _ _ _ _ _ _ _ _
      (Cert.KernelIdeal.PreFacts.types_nonneg m hpre c) (Cert.KernelIdeal.PreFacts.idxs_nonneg m hpre c) b s j
  · rw [(hagree c).1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
